-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000x6 : Shape := ⟨2, ![200000, 6]⟩
abbrev S2000000x42 : Shape := ⟨2, ![2000000, 42]⟩
abbrev S2000000 : Shape := ⟨1, ![2000000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S200000x6 : S_.BroadcastsInDim S200000x6 (![] : Fin 0 → Fin S200000x6.rank)
  reducesTo_S200000x6_S_d0_1 : S200000x6.ReducesTo [0, 1] S_
  bcast_S_S2000000x42 : S_.BroadcastsInDim S2000000x42 (![] : Fin 0 → Fin S2000000x42.rank)
  reducesTo_S2000000x42_S_d0_1 : S2000000x42.ReducesTo [0, 1] S_
  bcast_S_S6x8 : S_.BroadcastsInDim S6x8 (![] : Fin 0 → Fin S6x8.rank)
  reducesTo_S6x8_S_d0_1 : S6x8.ReducesTo [0, 1] S_
  bcast_S_S8x128 : S_.BroadcastsInDim S8x128 (![] : Fin 0 → Fin S8x128.rank)
  reducesTo_S8x128_S_d0_1 : S8x128.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_
  bcast_S_S2000000 : S_.BroadcastsInDim S2000000 (![] : Fin 0 → Fin S2000000.rank)
  reducesTo_S2000000_S_d0 : S2000000.ReducesTo [0] S_

variable [Facts]

def fn_part8 {F : FTy → Type} [FloatOps F] (main_arg3 : IVec S2000000 32) (main_v133 : IVec S_ 1) (main_v135 : IVec S2000000 1) (main_c_53 : IVec S_ 1) : IVec S_ 1 :=
  let main_v136 : IVec S_ 1 := (fun x v => Host.reduce IntOp.andi x v reducesTo_S2000000_S_d0 h_S_) main_v135 main_c_53
  let main_v137 : IVec S_ 1 := andi main_v133 main_v136
  let main_c_54 : IVec S_ 32 := constantI S_ 32 200000#32
  let main_v138 : IVec S2000000 32 := broadcastInDim S2000000 ![] bcast_S_S2000000 main_c_54
  let main_v139 : IVec S2000000 1 := cmpi .slt main_arg3 main_v138
  let main_c_55 : IVec S_ 1 := constantI S_ 1 1#1
  let main_v140 : IVec S_ 1 := (fun x v => Host.reduce IntOp.andi x v reducesTo_S2000000_S_d0 h_S_) main_v139 main_c_55
  let main_v141 : IVec S_ 1 := andi main_v137 main_v140
  main_v141

def fn_part7 {F : FTy → Type} [FloatOps F] (main_arg3 : IVec S2000000 32) (main_arg27 : FVec F S128x128 .f32) (main_arg28 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x128 .f32 := Host.absf main_arg27
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg28
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_c_52 : IVec S_ 32 := constantI S_ 32 0#32
  let main_v134 : IVec S2000000 32 := broadcastInDim S2000000 ![] bcast_S_S2000000 main_c_52
  let main_v135 : IVec S2000000 1 := cmpi .sge main_arg3 main_v134
  let main_c_53 : IVec S_ 1 := constantI S_ 1 1#1
  fn_part8 (F := F) main_arg3 main_v133 main_v135 main_c_53

def fn_part6 {F : FTy → Type} [FloatOps F] (main_arg3 : IVec S2000000 32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg23
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg25
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg26
  fn_part7 (F := F) main_arg3 main_arg27 main_arg28 main_v118 main_v119

def fn_part5 {F : FTy → Type} [FloatOps F] (main_arg3 : IVec S2000000 32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg3 main_arg23 main_arg24 main_arg25 main_arg26 main_arg27 main_arg28 main_v98 main_v101 main_c_39

def fn_part4 {F : FTy → Type} [FloatOps F] (main_arg3 : IVec S2000000 32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg3 main_arg20 main_arg21 main_arg22 main_arg23 main_arg24 main_arg25 main_arg26 main_arg27 main_arg28 main_v83 main_v84 main_cst_32

def fn_part3 {F : FTy → Type} [FloatOps F] (main_arg3 : IVec S2000000 32) (main_arg13 : FVec F S128x64 .f32) (main_arg14 : FVec F S64x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64x128 .f32 := Host.absf main_arg14
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg3 main_arg16 main_arg17 main_arg18 main_arg19 main_arg20 main_arg21 main_arg22 main_arg23 main_arg24 main_arg25 main_arg26 main_arg27 main_arg28 main_v63 main_v67

def fn_part2 {F : FTy → Type} [FloatOps F] (main_arg3 : IVec S2000000 32) (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg3 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg3 : IVec S2000000 32) (main_arg6 : FVec F S8x128 .f32) (main_arg7 : FVec F S42x8 .f32) (main_arg8 : FVec F S8x64 .f32) (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v13 : IVec S_ 1) (main_v16 : IVec S6x8 1) : IVec S_ 1 :=
  let main_c_5 : IVec S_ 1 := constantI S_ 1 1#1
  let main_v17 : IVec S_ 1 := (fun x v => Host.reduce IntOp.andi x v reducesTo_S6x8_S_d0_1 h_S_) main_v16 main_c_5
  let main_v18 : IVec S_ 1 := andi main_v13 main_v17
  let main_v19 : FVec F S8x128 .f32 := Host.absf main_arg6
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S42x8 .f32 := Host.absf main_arg7
  let main_cst_8 : FVec F S_ .f32 := constant S_ .f32 0x7F800000#32
  let main_v25 : FVec F S42x8 .f32 := broadcastInDim S42x8 ![] bcast_S_S42x8 main_cst_8
  let main_v26 : IVec S42x8 1 := cmpf .olt main_v24 main_v25
  let main_c_9 : IVec S_ 1 := constantI S_ 1 1#1
  let main_v27 : IVec S_ 1 := (fun x v => Host.reduce IntOp.andi x v reducesTo_S42x8_S_d0_1 h_S_) main_v26 main_c_9
  let main_v28 : IVec S_ 1 := andi main_v23 main_v27
  let main_v29 : FVec F S8x64 .f32 := Host.absf main_arg8
  let main_cst_10 : FVec F S_ .f32 := constant S_ .f32 0x7F800000#32
  let main_v30 : FVec F S8x64 .f32 := broadcastInDim S8x64 ![] bcast_S_S8x64 main_cst_10
  let main_v31 : IVec S8x64 1 := cmpf .olt main_v29 main_v30
  let main_c_11 : IVec S_ 1 := constantI S_ 1 1#1
  let main_v32 : IVec S_ 1 := (fun x v => Host.reduce IntOp.andi x v reducesTo_S8x64_S_d0_1 h_S_) main_v31 main_c_11
  let main_v33 : IVec S_ 1 := andi main_v28 main_v32
  fn_part2 (F := F) main_arg3 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S200000x128 .f32) (main_arg1 : FVec F S200000x6 .f32) (main_arg2 : FVec F S2000000x42 .f32) (main_arg3 : IVec S2000000 32) (main_arg4 : IVec S2000000 32) (main_arg5 : FVec F S6x8 .f32) (main_arg6 : FVec F S8x128 .f32) (main_arg7 : FVec F S42x8 .f32) (main_arg8 : FVec F S8x64 .f32) (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x6 .f32 := Host.absf main_arg1
  let main_cst_0 : FVec F S_ .f32 := constant S_ .f32 0x7F800000#32
  let main_v5 : FVec F S200000x6 .f32 := broadcastInDim S200000x6 ![] bcast_S_S200000x6 main_cst_0
  let main_v6 : IVec S200000x6 1 := cmpf .olt main_v4 main_v5
  let main_c_1 : IVec S_ 1 := constantI S_ 1 1#1
  let main_v7 : IVec S_ 1 := (fun x v => Host.reduce IntOp.andi x v reducesTo_S200000x6_S_d0_1 h_S_) main_v6 main_c_1
  let main_v8 : IVec S_ 1 := andi main_v3 main_v7
  let main_v9 : FVec F S2000000x42 .f32 := Host.absf main_arg2
  let main_cst_2 : FVec F S_ .f32 := constant S_ .f32 0x7F800000#32
  let main_v10 : FVec F S2000000x42 .f32 := broadcastInDim S2000000x42 ![] bcast_S_S2000000x42 main_cst_2
  let main_v11 : IVec S2000000x42 1 := cmpf .olt main_v9 main_v10
  let main_c_3 : IVec S_ 1 := constantI S_ 1 1#1
  let main_v12 : IVec S_ 1 := (fun x v => Host.reduce IntOp.andi x v reducesTo_S2000000x42_S_d0_1 h_S_) main_v11 main_c_3
  let main_v13 : IVec S_ 1 := andi main_v8 main_v12
  let main_v14 : FVec F S6x8 .f32 := Host.absf main_arg5
  let main_cst_4 : FVec F S_ .f32 := constant S_ .f32 0x7F800000#32
  let main_v15 : FVec F S6x8 .f32 := broadcastInDim S6x8 ![] bcast_S_S6x8 main_cst_4
  let main_v16 : IVec S6x8 1 := cmpf .olt main_v14 main_v15
  fn_part1 (F := F) main_arg3 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S200000x128 : Shape := ⟨2, ![200000, 128]⟩
abbrev S200000x6 : Shape := ⟨2, ![200000, 6]⟩
abbrev S2000000x42 : Shape := ⟨2, ![2000000, 42]⟩
abbrev S2000000 : Shape := ⟨1, ![2000000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128 : Shape := ⟨2, ![1, 128]⟩
abbrev S200000x64 : Shape := ⟨2, ![200000, 64]⟩
abbrev S4000x128 : Shape := ⟨2, ![4000, 128]⟩
abbrev S4000x6 : Shape := ⟨2, ![4000, 6]⟩
abbrev S4000x64 : Shape := ⟨2, ![4000, 64]⟩
abbrev S4000x8 : Shape := ⟨2, ![4000, 8]⟩
abbrev S2000000x1 : Shape := ⟨2, ![2000000, 1]⟩
abbrev S2000000x64 : Shape := ⟨2, ![2000000, 64]⟩
abbrev S8000x42 : Shape := ⟨2, ![8000, 42]⟩
abbrev S8000x64 : Shape := ⟨2, ![8000, 64]⟩
abbrev S8000x8 : Shape := ⟨2, ![8000, 8]⟩
abbrev S_ : Shape := ⟨0, ![]⟩

abbrev nBuf : Space → Nat
  | .hbm => 47
  | .vmem => 42
  | .smem => 0
  | _ => 0

abbrev bufTy : (tb : Table) → Fin (tcTables nBuf tb) → BufTy
  | .hbm, ⟨0, _⟩ => ⟨S200000x128, .f32⟩
  | .hbm, ⟨1, _⟩ => ⟨S200000x6, .f32⟩
  | .hbm, ⟨2, _⟩ => ⟨S2000000x42, .f32⟩
  | .hbm, ⟨3, _⟩ => ⟨S2000000, .i32⟩
  | .hbm, ⟨4, _⟩ => ⟨S2000000, .i32⟩
  | .hbm, ⟨5, _⟩ => ⟨S6x8, .f32⟩
  | .hbm, ⟨6, _⟩ => ⟨S8x128, .f32⟩
  | .hbm, ⟨7, _⟩ => ⟨S42x8, .f32⟩
  | .hbm, ⟨8, _⟩ => ⟨S8x64, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64x128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128x128, .f32⟩
  | .hbm, ⟨24, _⟩ => ⟨S128, .f32⟩
  | .hbm, ⟨25, _⟩ => ⟨S128x128, .f32⟩
  | .hbm, ⟨26, _⟩ => ⟨S128, .f32⟩
  | .hbm, ⟨27, _⟩ => ⟨S128x128, .f32⟩
  | .hbm, ⟨28, _⟩ => ⟨S128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S200000x64, .bf16⟩
  | .hbm, ⟨39, _⟩ => ⟨S2000000x1, .i32⟩
  | .hbm, ⟨40, _⟩ => ⟨S2000000x64, .bf16⟩
  | .hbm, ⟨41, _⟩ => ⟨S2000000x64, .f32⟩
  | .hbm, ⟨42, _⟩ => ⟨S_, .f32⟩
  | .hbm, ⟨43, _⟩ => ⟨S200000x64, .f32⟩
  | .hbm, ⟨44, _⟩ => ⟨S2000000x1, .i32⟩
  | .hbm, ⟨45, _⟩ => ⟨S200000x64, .f32⟩
  | .hbm, ⟨46, _⟩ => ⟨S200000x128, .f32⟩
  | .local _ .vmem, ⟨0, _⟩ => ⟨S4000x128, .f32⟩
  | .local _ .vmem, ⟨1, _⟩ => ⟨S4000x128, .f32⟩
  | .local _ .vmem, ⟨2, _⟩ => ⟨S4000x6, .f32⟩
  | .local _ .vmem, ⟨3, _⟩ => ⟨S4000x6, .f32⟩
  | .local _ .vmem, ⟨4, _⟩ => ⟨S128x128, .f32⟩
  | .local _ .vmem, ⟨5, _⟩ => ⟨S1x128, .f32⟩
  | .local _ .vmem, ⟨6, _⟩ => ⟨S6x8, .f32⟩
  | .local _ .vmem, ⟨7, _⟩ => ⟨S8x128, .f32⟩
  | .local _ .vmem, ⟨8, _⟩ => ⟨S128x64, .f32⟩
  | .local _ .vmem, ⟨9, _⟩ => ⟨S4000x64, .bf16⟩
  | .local _ .vmem, ⟨10, _⟩ => ⟨S4000x64, .bf16⟩
  | .local _ .vmem, ⟨11, _⟩ => ⟨S8000x42, .f32⟩
  | .local _ .vmem, ⟨12, _⟩ => ⟨S8000x42, .f32⟩
  | .local _ .vmem, ⟨13, _⟩ => ⟨S8000x64, .bf16⟩
  | .local _ .vmem, ⟨14, _⟩ => ⟨S8000x64, .bf16⟩
  | .local _ .vmem, ⟨15, _⟩ => ⟨S42x8, .f32⟩
  | .local _ .vmem, ⟨16, _⟩ => ⟨S8x64, .f32⟩
  | .local _ .vmem, ⟨17, _⟩ => ⟨S8000x64, .f32⟩
  | .local _ .vmem, ⟨18, _⟩ => ⟨S8000x64, .f32⟩
  | .local _ .vmem, ⟨19, _⟩ => ⟨S4000x64, .f32⟩
  | .local _ .vmem, ⟨20, _⟩ => ⟨S4000x64, .f32⟩
  | .local _ .vmem, ⟨21, _⟩ => ⟨S4000x128, .f32⟩
  | .local _ .vmem, ⟨22, _⟩ => ⟨S4000x128, .f32⟩
  | .local _ .vmem, ⟨23, _⟩ => ⟨S128x128, .f32⟩
  | .local _ .vmem, ⟨24, _⟩ => ⟨S1x128, .f32⟩
  | .local _ .vmem, ⟨25, _⟩ => ⟨S64x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S4000x128, .f32⟩
  | .local _ .vmem, ⟨41, _⟩ => ⟨S4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_call0_v0 : Ref sig .tc := ⟨.hbm, 39, rfl⟩
abbrev main_v10 : Ref sig .tc := ⟨.hbm, 40, rfl⟩
abbrev main_v11 : Ref sig .tc := ⟨.hbm, 41, rfl⟩
abbrev main_cst : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg11_0 : Ref sig .tc := ⟨.vmem, 32, rfl⟩
abbrev cc2_stg12_0 : Ref sig .tc := ⟨.vmem, 33, rfl⟩
abbrev cc2_stg13_0 : Ref sig .tc := ⟨.vmem, 34, rfl⟩
abbrev cc2_stg14_0 : Ref sig .tc := ⟨.vmem, 35, rfl⟩
abbrev cc2_stg15_0 : Ref sig .tc := ⟨.vmem, 36, rfl⟩
abbrev cc2_stg16_0 : Ref sig .tc := ⟨.vmem, 37, rfl⟩
abbrev cc2_stg17_0 : Ref sig .tc := ⟨.vmem, 38, rfl⟩
abbrev cc2_stg18_0 : Ref sig .tc := ⟨.vmem, 39, rfl⟩
abbrev cc2_stg19_0 : Ref sig .tc := ⟨.vmem, 40, rfl⟩
abbrev cc2_stg19_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem11_0 : DmaSem sig := 32
abbrev cc2_sem12_0 : DmaSem sig := 33
abbrev cc2_sem13_0 : DmaSem sig := 34
abbrev cc2_sem14_0 : DmaSem sig := 35
abbrev cc2_sem15_0 : DmaSem sig := 36
abbrev cc2_sem16_0 : DmaSem sig := 37
abbrev cc2_sem17_0 : DmaSem sig := 38
abbrev cc2_sem18_0 : DmaSem sig := 39
abbrev cc2_sem19_0 : DmaSem sig := 40
abbrev cc2_sem19_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S42x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S128x128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S1x128 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 2 → Memref sig .tc .vmem S4000x128 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

class Facts₀ : Prop where
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x6_S4000x6_0_0 : ∀ a, (![0, 0] : Fin 2 → Nat) a + S4000x6.size a ≤ S4000x6.size a
  h_S4000x6 : 0 < S4000x6.numel
  inb_S6x8_S6x8_0_0 : ∀ a, (![0, 0] : Fin 2 → Nat) a + S6x8.size a ≤ S6x8.size a
  h_S6x8 : 0 < S6x8.numel
  inb_S8x128_S8x128_0_0 : ∀ a, (![0, 0] : Fin 2 → Nat) a + S8x128.size a ≤ S8x128.size a
  h_S8x128 : 0 < S8x128.numel
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S2000000_S2000000x1_0 : S2000000.BroadcastsInDim S2000000x1 (![0] : Fin 1 → Fin S2000000x1.rank)
  inb_S8000x42_S8000x42_0_0 : ∀ a, (![0, 0] : Fin 2 → Nat) a + S8000x42.size a ≤ S8000x42.size a
  h_S8000x42 : 0 < S8000x42.numel
  inb_S42x8_S42x8_0_0 : ∀ a, (![0, 0] : Fin 2 → Nat) a + S42x8.size a ≤ S42x8.size a
  h_S42x8 : 0 < S42x8.numel
  inb_S8x64_S8x64_0_0 : ∀ a, (![0, 0] : Fin 2 → Nat) a + S8x64.size a ≤ S8x64.size a
  h_S8x64 : 0 < S8x64.numel
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S200000x64 : S_.BroadcastsInDim S200000x64 (![] : Fin 0 → Fin S200000x64.rank)
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  dot_S4000x128_S128x128_S4000x128_1_0_0_1_n_n_wf : DotDims.WF S4000x128 S128x128 S4000x128 [1] [0] [0] [1] [] []
  dot_S4000x6_S6x8_S4000x8_1_0_0_1_n_n_wf : DotDims.WF S4000x6 S6x8 S4000x8 [1] [0] [0] [1] [] []
  dot_S4000x8_S8x128_S4000x128_1_0_0_1_n_n_wf : DotDims.WF S4000x8 S8x128 S4000x128 [1] [0] [0] [1] [] []
  dot_S4000x128_S128x64_S4000x64_1_0_0_1_n_n_wf : DotDims.WF S4000x128 S128x64 S4000x64 [1] [0] [0] [1] [] []
  gather_S200000x64_S2000000x1_S2000000x64_1_0_n_n_0_1_164_wf : GatherDims.WF S200000x64 S2000000x1 S2000000x64 [1] [0] [] [0] [] 1 ![1, 64]
  dot_S8000x42_S42x8_S8000x8_1_0_0_1_n_n_wf : DotDims.WF S8000x42 S42x8 S8000x8 [1] [0] [0] [1] [] []
  dot_S8000x8_S8x64_S8000x64_1_0_0_1_n_n_wf : DotDims.WF S8000x8 S8x64 S8000x64 [1] [0] [0] [1] [] []
  scatter_S200000x64_S2000000x1_S2000000x64_1_0_0_1_wf : ScatterDims.WF S200000x64 S2000000x1 S2000000x64 [1] [0] [0] 1
  dot_S4000x64_S64x128_S4000x128_1_0_0_1_n_n_wf : DotDims.WF S4000x64 S64x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x6.size a ≤ S200000x6.size a
  hwx0_1 : ∀ i : grid0.Coords, EltTy.bits .f32 = 32 ∨ (Rect.block (s := S200000x6) S4000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x8.size a ≤ S6x8.size a
  hwx0_4 : ∀ i : grid0.Coords, EltTy.bits .f32 = 32 ∨ (Rect.block (s := S6x8) S6x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S200000x64.size a
  hwx0_7 : ∀ i : grid0.Coords, EltTy.bits .bf16 = 32 ∨ (Rect.block (s := S200000x64) S4000x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x42.size a ≤ S2000000x42.size a
  hwx1_0 : ∀ i : grid1.Coords, EltTy.bits .f32 = 32 ∨ (Rect.block (s := S2000000x42) S8000x42.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S2000000x64.size a
  hwx1_1 : ∀ i : grid1.Coords, EltTy.bits .bf16 = 32 ∨ (Rect.block (s := S2000000x64) S8000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S42x8.size a ≤ S42x8.size a
  hwx1_2 : ∀ i : grid1.Coords, EltTy.bits .f32 = 32 ∨ (Rect.block (s := S42x8) S42x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x64.size a ≤ S8x64.size a
  hwx1_3 : ∀ i : grid1.Coords, EltTy.bits .f32 = 32 ∨ (Rect.block (s := S8x64) S8x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x64.size a ≤ S2000000x64.size a
  hwx1_4 : ∀ i : grid1.Coords, EltTy.bits .f32 = 32 ∨ (Rect.block (s := S2000000x64) S8000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S200000x64.size a
  hwx2_0 : ∀ i : grid2.Coords, EltTy.bits .f32 = 32 ∨ (Rect.block (s := S200000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S200000x128.size a
  hwx2_1 : ∀ i : grid2.Coords, EltTy.bits .f32 = 32 ∨ (Rect.block (s := S200000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x128.size a
  hwx2_14 : ∀ i : grid2.Coords, EltTy.bits .f32 = 32 ∨ (Rect.block (s := S1x128) S1x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128x128.size a ≤ S128x128.size a
  hwx2_15 : ∀ i : grid2.Coords, EltTy.bits .f32 = 32 ∨ (Rect.block (s := S128x128) S128x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x128.size a ≤ S1x128.size a
  hwx2_16 : ∀ i : grid2.Coords, EltTy.bits .f32 = 32 ∨ (Rect.block (s := S1x128) S1x128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S128x128.size a ≤ S128x128.size a
  hwx2_17 : ∀ i : grid2.Coords, EltTy.bits .f32 = 32 ∨ (Rect.block (s := S128x128) S128x128.size (cc2_transform_17 i) (hinb2_17 i)).WholeWords (EltTy.packing .f32)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S1x128.size a ≤ S1x128.size a
  hwx2_18 : ∀ i : grid2.Coords, EltTy.bits .f32 = 32 ∨ (Rect.block (s := S1x128) S1x128.size (cc2_transform_18 i) (hinb2_18 i)).WholeWords (EltTy.packing .f32)
  hstage2_19 : ∀ j, (stage2_19 j).IsWhole
  nbuf2_19 : grid2.bufCount reads2_19 false = 2
  hreads2_19 : ∀ i i' : grid2.Coords, (∀ a, reads2_19 a = true → i a = i' a) → cc2_transform_19 i = cc2_transform_19 i'
  hinb2_19 : ∀ (i : grid2.Coords) a, (cc2_transform_19 i a + 1) * S4000x128.size a ≤ S200000x128.size a
  hwx2_19 : ∀ i : grid2.Coords, EltTy.bits .f32 = 32 ∨ (Rect.block (s := S200000x128) S4000x128.size (cc2_transform_19 i) (hinb2_19 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x6_S6x8_S4000x8_1_0_0_1_n_n : DotDims S4000x6 S6x8 S4000x8 where
  lhsContracting := [1]
  rhsContracting := [0]
  lhsNonContracting := [0]
  rhsNonContracting := [1]
  lhsBatch := []
  rhsBatch := []
  wf := dot_S4000x6_S6x8_S4000x8_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def dot_S8000x42_S42x8_S8000x8_1_0_0_1_n_n : DotDims S8000x42 S42x8 S8000x8 where
  lhsContracting := [1]
  rhsContracting := [0]
  lhsNonContracting := [0]
  rhsNonContracting := [1]
  lhsBatch := []
  rhsBatch := []
  wf := dot_S8000x42_S42x8_S8000x8_1_0_0_1_n_n_wf
def dot_S8000x8_S8x64_S8000x64_1_0_0_1_n_n : DotDims S8000x8 S8x64 S8000x64 where
  lhsContracting := [1]
  rhsContracting := [0]
  lhsNonContracting := [0]
  rhsNonContracting := [1]
  lhsBatch := []
  rhsBatch := []
  wf := dot_S8000x8_S8x64_S8000x64_1_0_0_1_n_n_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S6x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S8000x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S42x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S8x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S8000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v14) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v2) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v3) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg19) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v4) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg21) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v5) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg23) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v6) S1x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg25) S128x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v7) S1x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_arg27) S128x128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v8) S1x128.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_v15) S4000x128.size cc2_transform_19 reads2_19 true false 2 stage2_19 sem2_19
    hrank2 hreads2_19 hinb2_19 nbuf2_19 (Memref.isWhole_whole _) hwx2_19 hstage2_19

abbrev win2 : Fin 20 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | ⟨_ + 20, h⟩ => absurd h (Nat.not_lt.2 (Nat.le_add_left _ _))
abbrev spec2 : Fin 20 → Pipeline.WinSpec sig grid2.rank := fun w => (win2 w).toWinSpec

class Facts : Prop extends Facts₀ where

variable [Facts]
-- ==== ReferenceIdeal.lean ====
abbrev S200000x128 : Shape := ⟨2, ![200000, 128]⟩
abbrev S200000x6 : Shape := ⟨2, ![200000, 6]⟩
abbrev S2000000x42 : Shape := ⟨2, ![2000000, 42]⟩
abbrev S2000000 : Shape := ⟨1, ![2000000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128 : Shape := ⟨2, ![1, 128]⟩
abbrev S_ : Shape := ⟨0, ![]⟩
abbrev S200000x8 : Shape := ⟨2, ![200000, 8]⟩
abbrev S200000x64 : Shape := ⟨2, ![200000, 64]⟩
abbrev S2000000x8 : Shape := ⟨2, ![2000000, 8]⟩
abbrev S2000000x64 : Shape := ⟨2, ![2000000, 64]⟩
abbrev S2000000x1 : Shape := ⟨2, ![2000000, 1]⟩

abbrev nBuf : Space → Nat
  | .hbm => 190
  | .vmem => 0
  | .smem => 0
  | _ => 0

abbrev hbmTy0_0 (i : Nat) : BufTy := match i % 128 with
  | 0 => ⟨S200000x128, .f32⟩
  | 1 => ⟨S200000x6, .f32⟩
  | 2 => ⟨S2000000x42, .f32⟩
  | 3 => ⟨S2000000, .i32⟩
  | 4 => ⟨S2000000, .i32⟩
  | 5 => ⟨S6x8, .f32⟩
  | 6 => ⟨S8x128, .f32⟩
  | 7 => ⟨S42x8, .f32⟩
  | 8 => ⟨S8x64, .f32⟩
  | 9 => ⟨S128x128, .f32⟩
  | 10 => ⟨S128, .f32⟩
  | 11 => ⟨S128x128, .f32⟩
  | 12 => ⟨S128, .f32⟩
  | 13 => ⟨S128x64, .f32⟩
  | 14 => ⟨S64x128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S128x128, .f32⟩
  | 28 => ⟨S128, .f32⟩
  | 29 => ⟨S200000x128, .f32⟩
  | 30 => ⟨S1x128, .f32⟩
  | 31 => ⟨S200000x128, .f32⟩
  | 32 => ⟨S200000x128, .f32⟩
  | 33 => ⟨S200000x128, .f32⟩
  | 34 => ⟨S200000x128, .f32⟩
  | 35 => ⟨S_, .f32⟩
  | 36 => ⟨S200000x128, .f32⟩
  | 37 => ⟨S200000x128, .f32⟩
  | 38 => ⟨S_, .f32⟩
  | 39 => ⟨S200000x128, .f32⟩
  | 40 => ⟨S200000x128, .f32⟩
  | 41 => ⟨S200000x128, .f32⟩
  | 42 => ⟨S200000x128, .f32⟩
  | 43 => ⟨S1x128, .f32⟩
  | 44 => ⟨S200000x128, .f32⟩
  | 45 => ⟨S200000x128, .f32⟩
  | 46 => ⟨S200000x128, .f32⟩
  | 47 => ⟨S200000x128, .f32⟩
  | 48 => ⟨S_, .f32⟩
  | 49 => ⟨S200000x128, .f32⟩
  | 50 => ⟨S200000x128, .f32⟩
  | 51 => ⟨S_, .f32⟩
  | 52 => ⟨S200000x128, .f32⟩
  | 53 => ⟨S200000x128, .f32⟩
  | 54 => ⟨S200000x128, .f32⟩
  | 55 => ⟨S200000x8, .f32⟩
  | 56 => ⟨S200000x128, .f32⟩
  | 57 => ⟨S200000x128, .f32⟩
  | 58 => ⟨S200000x64, .f32⟩
  | 59 => ⟨S200000x64, .f32⟩
  | 60 => ⟨S200000x64, .f32⟩
  | 61 => ⟨S_, .f32⟩
  | 62 => ⟨S200000x64, .f32⟩
  | 63 => ⟨S200000x64, .f32⟩
  | 64 => ⟨S_, .f32⟩
  | 65 => ⟨S200000x64, .f32⟩
  | 66 => ⟨S200000x64, .f32⟩
  | 67 => ⟨S200000x64, .f32⟩
  | 68 => ⟨S2000000x8, .f32⟩
  | 69 => ⟨S2000000x64, .f32⟩
  | 70 => ⟨S_, .i32⟩
  | 71 => ⟨S2000000, .i32⟩
  | 72 => ⟨S2000000, .i1⟩
  | 73 => ⟨S_, .i32⟩
  | 74 => ⟨S2000000, .i32⟩
  | 75 => ⟨S2000000, .i32⟩
  | 76 => ⟨S2000000, .i32⟩
  | 77 => ⟨S2000000x1, .i32⟩
  | 78 => ⟨S2000000x64, .f32⟩
  | 79 => ⟨S2000000x64, .f32⟩
  | 80 => ⟨S_, .f32⟩
  | 81 => ⟨S200000x64, .f32⟩
  | 82 => ⟨S2000000x1, .i32⟩
  | 83 => ⟨S200000x64, .f32⟩
  | 84 => ⟨S200000x128, .f32⟩
  | 85 => ⟨S200000x128, .f32⟩
  | 86 => ⟨S200000x128, .f32⟩
  | 87 => ⟨S_, .f32⟩
  | 88 => ⟨S200000x128, .f32⟩
  | 89 => ⟨S200000x128, .f32⟩
  | 90 => ⟨S_, .f32⟩
  | 91 => ⟨S200000x128, .f32⟩
  | 92 => ⟨S200000x128, .f32⟩
  | 93 => ⟨S200000x128, .f32⟩
  | 94 => ⟨S200000x128, .f32⟩
  | 95 => ⟨S200000x128, .f32⟩
  | 96 => ⟨S1x128, .f32⟩
  | 97 => ⟨S200000x128, .f32⟩
  | 98 => ⟨S200000x128, .f32⟩
  | 99 => ⟨S200000x128, .f32⟩
  | 100 => ⟨S200000x128, .f32⟩
  | 101 => ⟨S_, .f32⟩
  | 102 => ⟨S200000x128, .f32⟩
  | 103 => ⟨S200000x128, .f32⟩
  | 104 => ⟨S_, .f32⟩
  | 105 => ⟨S200000x128, .f32⟩
  | 106 => ⟨S200000x128, .f32⟩
  | 107 => ⟨S200000x128, .f32⟩
  | 108 => ⟨S200000x128, .f32⟩
  | 109 => ⟨S1x128, .f32⟩
  | 110 => ⟨S200000x128, .f32⟩
  | 111 => ⟨S200000x128, .f32⟩
  | 112 => ⟨S200000x128, .f32⟩
  | 113 => ⟨S200000x128, .f32⟩
  | 114 => ⟨S_, .f32⟩
  | 115 => ⟨S200000x128, .f32⟩
  | 116 => ⟨S200000x128, .f32⟩
  | 117 => ⟨S_, .f32⟩
  | 118 => ⟨S200000x128, .f32⟩
  | 119 => ⟨S200000x128, .f32⟩
  | 120 => ⟨S200000x128, .f32⟩
  | 121 => ⟨S200000x128, .f32⟩
  | 122 => ⟨S200000x128, .f32⟩
  | 123 => ⟨S1x128, .f32⟩
  | 124 => ⟨S200000x128, .f32⟩
  | 125 => ⟨S200000x128, .f32⟩
  | 126 => ⟨S200000x128, .f32⟩
  | 127 => ⟨S200000x128, .f32⟩
  | _ => ⟨S200000x128, .f32⟩

abbrev hbmTy0_1 (i : Nat) : BufTy := match i % 128 with
  | 0 => ⟨S_, .f32⟩
  | 1 => ⟨S200000x128, .f32⟩
  | 2 => ⟨S200000x128, .f32⟩
  | 3 => ⟨S_, .f32⟩
  | 4 => ⟨S200000x128, .f32⟩
  | 5 => ⟨S200000x128, .f32⟩
  | 6 => ⟨S200000x128, .f32⟩
  | 7 => ⟨S200000x128, .f32⟩
  | 8 => ⟨S200000x128, .f32⟩
  | 9 => ⟨S1x128, .f32⟩
  | 10 => ⟨S200000x128, .f32⟩
  | 11 => ⟨S200000x128, .f32⟩
  | 12 => ⟨S200000x128, .f32⟩
  | 13 => ⟨S200000x128, .f32⟩
  | 14 => ⟨S_, .f32⟩
  | 15 => ⟨S200000x128, .f32⟩
  | 16 => ⟨S200000x128, .f32⟩
  | 17 => ⟨S_, .f32⟩
  | 18 => ⟨S200000x128, .f32⟩
  | 19 => ⟨S200000x128, .f32⟩
  | 20 => ⟨S200000x128, .f32⟩
  | 21 => ⟨S200000x128, .f32⟩
  | 22 => ⟨S1x128, .f32⟩
  | 23 => ⟨S200000x128, .f32⟩
  | 24 => ⟨S200000x128, .f32⟩
  | 25 => ⟨S200000x128, .f32⟩
  | 26 => ⟨S200000x128, .f32⟩
  | 27 => ⟨S_, .f32⟩
  | 28 => ⟨S200000x128, .f32⟩
  | 29 => ⟨S200000x128, .f32⟩
  | 30 => ⟨S_, .f32⟩
  | 31 => ⟨S200000x128, .f32⟩
  | 32 => ⟨S200000x128, .f32⟩
  | 33 => ⟨S200000x128, .f32⟩
  | 34 => ⟨S200000x128, .f32⟩
  | 35 => ⟨S200000x128, .f32⟩
  | 36 => ⟨S1x128, .f32⟩
  | 37 => ⟨S200000x128, .f32⟩
  | 38 => ⟨S200000x128, .f32⟩
  | 39 => ⟨S200000x128, .f32⟩
  | 40 => ⟨S200000x128, .f32⟩
  | 41 => ⟨S_, .f32⟩
  | 42 => ⟨S200000x128, .f32⟩
  | 43 => ⟨S200000x128, .f32⟩
  | 44 => ⟨S_, .f32⟩
  | 45 => ⟨S200000x128, .f32⟩
  | 46 => ⟨S200000x128, .f32⟩
  | 47 => ⟨S200000x128, .f32⟩
  | 48 => ⟨S200000x128, .f32⟩
  | 49 => ⟨S1x128, .f32⟩
  | 50 => ⟨S200000x128, .f32⟩
  | 51 => ⟨S200000x128, .f32⟩
  | 52 => ⟨S200000x128, .f32⟩
  | 53 => ⟨S200000x128, .f32⟩
  | 54 => ⟨S_, .f32⟩
  | 55 => ⟨S200000x128, .f32⟩
  | 56 => ⟨S200000x128, .f32⟩
  | 57 => ⟨S_, .f32⟩
  | 58 => ⟨S200000x128, .f32⟩
  | 59 => ⟨S200000x128, .f32⟩
  | 60 => ⟨S200000x128, .f32⟩
  | 61 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_cst : Ref sig .tc := ⟨.hbm, 35, rfl⟩
abbrev main_v6 : Ref sig .tc := ⟨.hbm, 36, rfl⟩
abbrev main_v7 : Ref sig .tc := ⟨.hbm, 37, rfl⟩
abbrev main_cst_0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_1 : Ref sig .tc := ⟨.hbm, 48, rfl⟩
abbrev main_v17 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_3 : Ref sig .tc := ⟨.hbm, 61, rfl⟩
abbrev main_v28 : Ref sig .tc := ⟨.hbm, 62, rfl⟩
abbrev main_v29 : Ref sig .tc := ⟨.hbm, 63, rfl⟩
abbrev main_cst_4 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c : Ref sig .tc := ⟨.hbm, 70, rfl⟩
abbrev main_v35 : Ref sig .tc := ⟨.hbm, 71, rfl⟩
abbrev main_v36 : Ref sig .tc := ⟨.hbm, 72, rfl⟩
abbrev main_c_5 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_6 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_7 : Ref sig .tc := ⟨.hbm, 87, rfl⟩
abbrev main_v49 : Ref sig .tc := ⟨.hbm, 88, rfl⟩
abbrev main_v50 : Ref sig .tc := ⟨.hbm, 89, rfl⟩
abbrev main_cst_8 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_9 : Ref sig .tc := ⟨.hbm, 101, rfl⟩
abbrev main_v61 : Ref sig .tc := ⟨.hbm, 102, rfl⟩
abbrev main_v62 : Ref sig .tc := ⟨.hbm, 103, rfl⟩
abbrev main_cst_10 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_11 : Ref sig .tc := ⟨.hbm, 114, rfl⟩
abbrev main_v72 : Ref sig .tc := ⟨.hbm, 115, rfl⟩
abbrev main_v73 : Ref sig .tc := ⟨.hbm, 116, rfl⟩
abbrev main_cst_12 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_13 : Ref sig .tc := ⟨.hbm, 128, rfl⟩
abbrev main_v84 : Ref sig .tc := ⟨.hbm, 129, rfl⟩
abbrev main_v85 : Ref sig .tc := ⟨.hbm, 130, rfl⟩
abbrev main_cst_14 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_15 : Ref sig .tc := ⟨.hbm, 142, rfl⟩
abbrev main_v96 : Ref sig .tc := ⟨.hbm, 143, rfl⟩
abbrev main_v97 : Ref sig .tc := ⟨.hbm, 144, rfl⟩
abbrev main_cst_16 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_17 : Ref sig .tc := ⟨.hbm, 155, rfl⟩
abbrev main_v107 : Ref sig .tc := ⟨.hbm, 156, rfl⟩
abbrev main_v108 : Ref sig .tc := ⟨.hbm, 157, rfl⟩
abbrev main_cst_18 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_cst_19 : Ref sig .tc := ⟨.hbm, 169, rfl⟩
abbrev main_v119 : Ref sig .tc := ⟨.hbm, 170, rfl⟩
abbrev main_v120 : Ref sig .tc := ⟨.hbm, 171, rfl⟩
abbrev main_cst_20 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_21 : Ref sig .tc := ⟨.hbm, 182, rfl⟩
abbrev main_v130 : Ref sig .tc := ⟨.hbm, 183, rfl⟩
abbrev main_v131 : Ref sig .tc := ⟨.hbm, 184, rfl⟩
abbrev main_cst_22 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S200000x64 : S_.BroadcastsInDim S200000x64 (![] : Fin 0 → Fin S200000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  dot_S200000x128_S128x128_S200000x128_1_0_0_1_n_n_wf : DotDims.WF S200000x128 S128x128 S200000x128 [1] [0] [0] [1] [] []
  dot_S200000x6_S6x8_S200000x8_1_0_0_1_n_n_wf : DotDims.WF S200000x6 S6x8 S200000x8 [1] [0] [0] [1] [] []
  dot_S200000x8_S8x128_S200000x128_1_0_0_1_n_n_wf : DotDims.WF S200000x8 S8x128 S200000x128 [1] [0] [0] [1] [] []
  dot_S200000x128_S128x64_S200000x64_1_0_0_1_n_n_wf : DotDims.WF S200000x128 S128x64 S200000x64 [1] [0] [0] [1] [] []
  dot_S2000000x42_S42x8_S2000000x8_1_0_0_1_n_n_wf : DotDims.WF S2000000x42 S42x8 S2000000x8 [1] [0] [0] [1] [] []
  dot_S2000000x8_S8x64_S2000000x64_1_0_0_1_n_n_wf : DotDims.WF S2000000x8 S8x64 S2000000x64 [1] [0] [0] [1] [] []
  gather_S200000x64_S2000000x1_S2000000x64_1_0_n_n_0_1_164_wf : GatherDims.WF S200000x64 S2000000x1 S2000000x64 [1] [0] [] [0] [] 1 ![1, 64]
  scatter_S200000x64_S2000000x1_S2000000x64_1_0_0_1_wf : ScatterDims.WF S200000x64 S2000000x1 S2000000x64 [1] [0] [0] 1
  dot_S200000x64_S64x128_S200000x128_1_0_0_1_n_n_wf : DotDims.WF S200000x64 S64x128 S200000x128 [1] [0] [0] [1] [] []

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x6_S6x8_S200000x8_1_0_0_1_n_n : DotDims S200000x6 S6x8 S200000x8 where
  lhsContracting := [1]
  rhsContracting := [0]
  lhsNonContracting := [0]
  rhsNonContracting := [1]
  lhsBatch := []
  rhsBatch := []
  wf := dot_S200000x6_S6x8_S200000x8_1_0_0_1_n_n_wf
def dot_S200000x8_S8x128_S200000x128_1_0_0_1_n_n : DotDims S200000x8 S8x128 S200000x128 where
  lhsContracting := [1]
  rhsContracting := [0]
  lhsNonContracting := [0]
  rhsNonContracting := [1]
  lhsBatch := []
  rhsBatch := []
  wf := dot_S200000x8_S8x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S2000000x42_S42x8_S2000000x8_1_0_0_1_n_n : DotDims S2000000x42 S42x8 S2000000x8 where
  lhsContracting := [1]
  rhsContracting := [0]
  lhsNonContracting := [0]
  rhsNonContracting := [1]
  lhsBatch := []
  rhsBatch := []
  wf := dot_S2000000x42_S42x8_S2000000x8_1_0_0_1_n_n_wf
def dot_S2000000x8_S8x64_S2000000x64_1_0_0_1_n_n : DotDims S2000000x8 S8x64 S2000000x64 where
  lhsContracting := [1]
  rhsContracting := [0]
  lhsNonContracting := [0]
  rhsNonContracting := [1]
  lhsBatch := []
  rhsBatch := []
  wf := dot_S2000000x8_S8x64_S2000000x64_1_0_0_1_n_n_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf

class Facts : Prop extends Facts₀ where

variable [Facts]
-- ==== Proof.HostSteps.lean ====
/-
  The host side of the kernel's program between its three pallas_calls, as facts about buffer contents at the six
  boundaries of the program (before and after each call).

  * A buffer keeps its contents across a stretch of host operations that does not write it, and across a pallas_call of
    which it is not the output (an input array of a call is read, never written back).
  * What the host operations write: the nine biases reshaped from length 128 to 1 × 128 before the first call; the rows
    of the first call's output gathered by idx_kj between the first and second calls; the second call's output
    scatter-added by idx_ji into zeros between the second and third calls.
-/
import proofs.«405097_j85779086836105_3_alg».proof.Proof.Gen.KernelIdeal.Frame
import Idealize.ShloMosaic.Lib.StableHlo.Run

set_option maxRecDepth 16384

noncomputable section

namespace Cert.KernelIdeal.HostSteps

open Cert.KernelIdeal Cert.KernelIdeal.Gen
open Idealize.ShloMosaic Idealize.ShloMosaic.TcCoe Idealize.ShloMosaic.Tactic Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## Buffers a segment does not write -/

/-- The reshapes before the first call write only the nine 1 × 128 bias buffers. -/
theorem host0_keeps (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    W1 m ρ c (Proc.devRef .tc b) = W0 m ρ c (Proc.devRef .tc b) := by
  obtain ⟨h0, h1, h2, h3, h4, h5, h6, h7, h8⟩ := hb
  refine StableHlo.after_of_forall_not_mem (b := Proc.devRef .tc b) _ _ (List.forall_iff_forall_mem.mp ?_)
  simp only [hostOps0, List.Forall, StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8⟩

/-- The first call writes only its output. -/
theorem call0_keeps (c : Dev nD) (b : Ref sig .tc) (hb : b ≠ main_v9) :
    W2 m ρ c (Proc.devRef .tc b) = W1 m ρ c (Proc.devRef .tc b) := by
  by_cases h : ∀ w, Pipeline.arrRef spec0 w ≠ b
  · exact W2_of_ne m ρ c b h
  · obtain ⟨w, hw⟩ := not_forall.mp h
    obtain rfl := not_not.mp hw
    have hin : (cfg0.win w).isOut = false :=
      (by decide : ∀ w : Fin 8, Pipeline.arrRef spec0 w ≠ main_v9 → (cfg0.win w).isOut = false) w hb
    exact (W2_arr m ρ c w).trans (((dat0 (V1 m ρ) c).arrAt_in w hin _).trans (A_eq0 (V1 m ρ) c w))

/-- The gather between the first and second calls writes the index column and the gathered rows. -/
theorem host1_keeps (c : Dev nD) (b : Ref sig .tc) (hb : b ≠ main_call0_v0 ∧ b ≠ main_v10) :
    W3 m ρ c (Proc.devRef .tc b) = W2 m ρ c (Proc.devRef .tc b) := by
  obtain ⟨h0, h1⟩ := hb
  refine StableHlo.after_of_forall_not_mem (b := Proc.devRef .tc b) _ _ (List.forall_iff_forall_mem.mp ?_)
  simp only [hostOps1, List.Forall, StableHlo.TRef.unary, StableHlo.TRef.binary, StableHlo.unary_writes, StableHlo.binary_writes, Finset.mem_singleton]
  exact ⟨StableHlo.devRef_ne_of_ne h0, StableHlo.devRef_ne_of_ne h1⟩

/-- The second call writes only its output. -/
theorem call1_keeps (c : Dev nD) (b : Ref sig .tc) (hb : b ≠ main_v11) :
    W4 m ρ c (Proc.devRef .tc b) = W3 m ρ c (Proc.devRef .tc b) := by
  by_cases h : ∀ w, Pipeline.arrRef spec1 w ≠ b
  · exact W4_of_ne m ρ c b h
  · obtain ⟨w, hw⟩ := not_forall.mp h
    obtain rfl := not_not.mp hw
    have hin : (cfg1.win w).isOut = false :=
      (by decide : ∀ w : Fin 5, Pipeline.arrRef spec1 w ≠ main_v11 → (cfg1.win w).isOut = false) w hb
    exact (W4_arr m ρ c w).trans (((dat1 (V3 m ρ) c).arrAt_in w hin _).trans (A_eq1 (V3 m ρ) c w))

/-- The scatter-add between the second and third calls writes the zero, its broadcast, the index column and the sums. -/
theorem host2_keeps (c : Dev nD) (b : Ref sig .tc) (hb : b ≠ main_cst ∧ b ≠ main_v12 ∧ b ≠ main_v13 ∧ b ≠ main_v14) :
    W5 m ρ c (Proc.devRef .tc b) = W4 m ρ c (Proc.devRef .tc b) := by
  obtain ⟨h0, h1, h2, h3⟩ := hb
  refine StableHlo.after_of_forall_not_mem (b := Proc.devRef .tc b) _ _ (List.forall_iff_forall_mem.mp ?_)
  simp only [hostOps2, List.Forall, StableHlo.nullary_writes, StableHlo.unary_writes, StableHlo.ternary_writes, Finset.mem_singleton]
  exact ⟨StableHlo.devRef_ne_of_ne h0, StableHlo.devRef_ne_of_ne h1, StableHlo.devRef_ne_of_ne h2, StableHlo.devRef_ne_of_ne h3⟩

/-! ## What the host operations write -/

/-- Between the first and second calls: the first call's output, its rows gathered at the column of idx_kj. -/
theorem gathered_eq (c : Dev nD) :
    W3 m ρ c (Proc.devRef .tc main_v10)
      = Host.gather gather_S200000x64_S2000000x1_S2000000x64_1_0_n_n_0_1_164 (W2 m ρ c (Proc.devRef .tc main_v9))
          (broadcastInDim S2000000x1 ![0] bcast_S2000000_S2000000x1_0 (W2 m ρ c (Proc.devRef .tc main_arg3))) := by
  show StableHlo.after hostOps1 (W2 m ρ c) (Proc.devRef .tc main_v10) = _
  after_results
  rfl

/-- Between the second and third calls: the second call's output scatter-added by the column of idx_ji into zeros. -/
theorem summed_eq (c : Dev nD) :
    W5 m ρ c (Proc.devRef .tc main_v14)
      = Host.scatterAdd scatter_S200000x64_S2000000x1_S2000000x64_1_0_0_1
          (broadcastInDim S200000x64 ![] bcast_S_S200000x64 (constant S_ .f32 0x00000000#32))
          (broadcastInDim S2000000x1 ![0] bcast_S2000000_S2000000x1_0 (W4 m ρ c (Proc.devRef .tc main_arg4)))
          (W4 m ρ c (Proc.devRef .tc main_v11)) := by
  show StableHlo.after hostOps2 (W4 m ρ c) (Proc.devRef .tc main_v14) = _
  after_results

/-- Before the first call: a bias as a 1 × 128 block is the length-128 argument reshaped. -/
theorem bias0_eq (c : Dev nD) : W1 m ρ c (Proc.devRef .tc main_v0) = shapeCast S1x128 (W0 m ρ c (Proc.devRef .tc main_arg10)) shapeCasts_S128_S1x128 := by
  show StableHlo.after hostOps0 (W0 m ρ c) (Proc.devRef .tc main_v0) = _
  after_results
  rfl
theorem bias1_eq (c : Dev nD) : W1 m ρ c (Proc.devRef .tc main_v1) = shapeCast S1x128 (W0 m ρ c (Proc.devRef .tc main_arg12)) shapeCasts_S128_S1x128 := by
  show StableHlo.after hostOps0 (W0 m ρ c) (Proc.devRef .tc main_v1) = _
  after_results
  rfl
theorem bias2_eq (c : Dev nD) : W1 m ρ c (Proc.devRef .tc main_v2) = shapeCast S1x128 (W0 m ρ c (Proc.devRef .tc main_arg16)) shapeCasts_S128_S1x128 := by
  show StableHlo.after hostOps0 (W0 m ρ c) (Proc.devRef .tc main_v2) = _
  after_results
  rfl
theorem bias3_eq (c : Dev nD) : W1 m ρ c (Proc.devRef .tc main_v3) = shapeCast S1x128 (W0 m ρ c (Proc.devRef .tc main_arg18)) shapeCasts_S128_S1x128 := by
  show StableHlo.after hostOps0 (W0 m ρ c) (Proc.devRef .tc main_v3) = _
  after_results
  rfl
theorem bias4_eq (c : Dev nD) : W1 m ρ c (Proc.devRef .tc main_v4) = shapeCast S1x128 (W0 m ρ c (Proc.devRef .tc main_arg20)) shapeCasts_S128_S1x128 := by
  show StableHlo.after hostOps0 (W0 m ρ c) (Proc.devRef .tc main_v4) = _
  after_results
  rfl
theorem bias5_eq (c : Dev nD) : W1 m ρ c (Proc.devRef .tc main_v5) = shapeCast S1x128 (W0 m ρ c (Proc.devRef .tc main_arg22)) shapeCasts_S128_S1x128 := by
  show StableHlo.after hostOps0 (W0 m ρ c) (Proc.devRef .tc main_v5) = _
  after_results
  rfl
theorem bias6_eq (c : Dev nD) : W1 m ρ c (Proc.devRef .tc main_v6) = shapeCast S1x128 (W0 m ρ c (Proc.devRef .tc main_arg24)) shapeCasts_S128_S1x128 := by
  show StableHlo.after hostOps0 (W0 m ρ c) (Proc.devRef .tc main_v6) = _
  after_results
  rfl
theorem bias7_eq (c : Dev nD) : W1 m ρ c (Proc.devRef .tc main_v7) = shapeCast S1x128 (W0 m ρ c (Proc.devRef .tc main_arg26)) shapeCasts_S128_S1x128 := by
  show StableHlo.after hostOps0 (W0 m ρ c) (Proc.devRef .tc main_v7) = _
  after_results
  rfl
theorem bias8_eq (c : Dev nD) : W1 m ρ c (Proc.devRef .tc main_v8) = shapeCast S1x128 (W0 m ρ c (Proc.devRef .tc main_arg28)) shapeCasts_S128_S1x128 := by
  show StableHlo.after hostOps0 (W0 m ρ c) (Proc.devRef .tc main_v8) = _
  after_results
  rfl

end Cert.KernelIdeal.HostSteps

end
-- ==== Proof.RowMath.lean ====
/-
  Matrices of extended reals by rows.  A dense layer of this network is a product of a tall matrix (one row per edge or
  per triplet) with a small weight matrix, plus a bias row, followed by the swish x * sigmoid(x).  Every one of these acts
  on each row by itself, so a block of rows of the result is the same operation applied to that block of rows of the
  input.  This file states the operations as plain sums and pointwise functions (mm, swishV, addCols), shows that the
  vector unit's and the host's spellings of them are these functions on the extended reals, and that they commute with
  taking a block of consecutive rows (rowsOf).
-/
import Idealize.ShloMosaic.Lib.ValueIdx
import Idealize.ShloMosaic.Lib.Pipeline.Value
import Idealize.ShloMosaic.Lib.StableHlo.Predicate
import Idealize.ShloMosaic.PureOps.Ideal.Laws

noncomputable section

open Idealize.ShloMosaic Idealize.ShloMosaic.ValueIdx

namespace Cert.RowMath

/-- The shape of an R × C matrix. -/
abbrev Sh2 (R C : Nat) : Shape := ⟨2, ![R, C]⟩
/-- The shape of a vector of length C. -/
abbrev Sh1 (C : Nat) : Shape := ⟨1, ![C]⟩
/-- The shape of a scalar. -/
abbrev Sh0 : Shape := ⟨0, ![]⟩

/-! ## The matrix product as a sum -/

/-- Rows times columns: entry (p, q) is the sum over k of l(p, k) · r(k, q). -/
def mm {M K N : Nat} (l : FVec Ideal (Sh2 M K) .f32) (r : FVec Ideal (Sh2 K N) .f32) : FVec Ideal (Sh2 M N) .f32 :=
  fun j => ∑ k : Fin K, l (ix2 (j 0) k) * r (ix2 k (j 1))

/-- In the plain M×K by K×N product the left operand is read at (row of the output, k). -/
theorem lhs_plain {M K N : Nat} (j : (Sh2 M N).Idx) (k : (DotDims.plain M K N).contr.Idx) (k' : Fin K)
    (hk : (k ⟨0, (Nat.one_pos : 0 < 1)⟩).val = k'.val) : (DotDims.plain M K N).lhsIdx j k = ix2 (j 0) k' := by
  funext a; apply Fin.ext
  match a with
  | ⟨0, _⟩ => rfl
  | ⟨1, _⟩ => exact ((DotDims.plain M K N).lhsIdx_val_of_single (cl := 1) rfl j k).trans hk

/-- … and the right operand at (k, column of the output). -/
theorem rhs_plain {M K N : Nat} (j : (Sh2 M N).Idx) (k : (DotDims.plain M K N).contr.Idx) (k' : Fin K)
    (hk : (k ⟨0, (Nat.one_pos : 0 < 1)⟩).val = k'.val) : (DotDims.plain M K N).rhsIdx j k = ix2 k' (j 1) := by
  funext a; apply Fin.ext
  match a with
  | ⟨0, _⟩ => exact ((DotDims.plain M K N).rhsIdx_val_of_single (cr := 0) rfl j k).trans hk
  | ⟨1, _⟩ => rfl

/-- The vector unit's matrix product into a zero accumulator is the sum: on the extended reals a change of float format
    is the identity, so the operands' formats do not matter. -/
theorem matmul_plain_zero {M K N : Nat} {φ₁ φ₂ : FTy} (prec : Option ContractPrecision)
    (l : FVec Ideal (Sh2 M K) φ₁) (r : FVec Ideal (Sh2 K N) φ₂) :
    matmul (DotDims.plain M K N) prec l r (constant (Sh2 M N) .f32 0x00000000#32) = mm l r := by
  funext j
  simp only [matmul]
  rw [Ideal.matmul_constant_zero_apply]
  unfold mm
  rw [← Equiv.sum_comp (contrEquiv1 (DotDims.plain M K N) K rfl rfl).symm]
  refine Finset.sum_congr rfl fun k _ => ?_
  have hk := contrEquiv1_symm_val (DotDims.plain M K N) K rfl rfl k
  rw [lhs_plain j _ k hk, rhs_plain j _ k hk]
  rfl

/-- The host's dot_general of the same dimension numbers is the same sum. -/
theorem dotGeneral_plain {M K N : Nat} {φ₁ φ₂ : FTy} (prec : Option ContractPrecision)
    (l : FVec Ideal (Sh2 M K) φ₁) (r : FVec Ideal (Sh2 K N) φ₂) :
    Host.dotGeneral (DotDims.plain M K N) prec l r = mm l r := by
  funext j
  simp only [Host.dotGeneral]
  rw [Ideal.dotGeneral_apply]
  unfold mm
  rw [← Equiv.sum_comp (contrEquiv1 (DotDims.plain M K N) K rfl rfl).symm]
  refine Finset.sum_congr rfl fun k _ => ?_
  have hk := contrEquiv1_symm_val (DotDims.plain M K N) K rfl rfl k
  rw [lhs_plain j _ k hk, rhs_plain j _ k hk]
  rfl

/-! ## swish -/

/-- x · sigmoid(x), entry by entry, with sigmoid(x) = 1 / (1 + e^(-x)) on the extended reals (0 at -∞, 1 at +∞). -/
def swishV {s : Shape} (v : FVec Ideal s .f32) : FVec Ideal s .f32 := fun i => v i * Ideal.logistic (v i)

/-- The vector unit has sigmoid as one operation. -/
theorem swish_kernel {s : Shape} (v : FVec Ideal s .f32) : mulf v (logistic v) = swishV v := rfl

/-- The f32 word 0x3F800000 is the number 1. -/
theorem one_f32 : Ideal.ofBits .f32 0x3F800000#32 = 1 := by
  simp [Ideal.ofBits, Ideal.ieee, -EReal.coe_mul]; norm_num

/-- The host spells sigmoid out as 1 / (1 + exp(-x)); on the extended reals that is the same function, infinities included. -/
theorem swish_host {s : Shape} (bc : Sh0.BroadcastsInDim s ![]) (v : FVec Ideal s .f32) :
    mulf v (Host.divf (broadcastInDim s ![] bc (constant Sh0 .f32 0x3F800000#32))
      (addf (broadcastInDim s ![] bc (constant Sh0 .f32 0x3F800000#32)) (Host.exp (Host.negf v)))) = swishV v := by
  funext i
  show v i * Ideal.div (Ideal.ofBits .f32 0x3F800000#32) (Ideal.ofBits .f32 0x3F800000#32 + Ideal.exp (-(v i)))
    = v i * Ideal.logistic (v i)
  rw [one_f32]
  rfl

/-! ## A bias row added to every row -/

/-- v(p, q) + b(q). -/
def addCols {R C : Nat} (v : FVec Ideal (Sh2 R C) .f32) (b : Fin C → EReal) : FVec Ideal (Sh2 R C) .f32 :=
  fun i => v i + b (i 1)

/-- The one row of a 1 × C block, as a function of the column. -/
def rowVec {C : Nat} (b2 : FVec Ideal (Sh2 1 C) .f32) : Fin C → EReal := fun q => b2 (ix2 0 q)
/-- A length-C vector, as a function of its position. -/
def vecFn {C : Nat} (b : FVec Ideal (Sh1 C) .f32) : Fin C → EReal := fun q => b (ix1 q)

/-- A length-C vector reshaped to a 1 × C block has the vector as its one row. -/
theorem rowVec_reshape {C : Nat} (b : FVec Ideal (Sh1 C) .f32) (h : (Sh1 C).ShapeCasts (Sh2 1 C)) :
    rowVec (shapeCast (Sh2 1 C) b h) = vecFn b := by
  funext q
  show shapeCast (Sh2 1 C) b h (ix2 0 q) = b (ix1 q)
  refine shapeCast_apply b h (ix2 0 q) (ix1 q) ?_
  rw [Shape.rowMajor_val_one, Shape.rowMajor_val_two]
  show q.val = (0 : Fin 1).val * C + q.val
  simp

/-- The kernel holds the bias as a 1 × C block and broadcasts it down the rows. -/
theorem bias_kernel {R C : Nat} (v : FVec Ideal (Sh2 R C) .f32) (b2 : FVec Ideal (Sh2 1 C) .f32)
    (h : (Sh2 1 C).ShapeCasts (Sh2 1 C)) (h' : (Sh2 1 C).Broadcasts (Sh2 R C)) :
    addf v (broadcastTo (Sh2 R C) (shapeCast (Sh2 1 C) b2 h) h') = addCols v (rowVec b2) := by
  funext i
  show v i + broadcastTo (Sh2 R C) (shapeCast (Sh2 1 C) b2 h) h' i = v i + b2 (ix2 0 (i 1))
  rw [shapeCast_self]
  congr 1
  refine broadcastTo_apply b2 h' i (ix2 0 (i 1)) fun a => ?_
  match a with
  | ⟨0, _⟩ => rfl
  | ⟨1, _⟩ =>
    show (i 1).val = if C = 1 then 0 else (i 1).val
    split
    · next h1 => have := idx2_lt1 i; omega
    · rfl

/-- The host broadcasts the length-C bias to 1 × C and then down the rows. -/
theorem bias_host {R C : Nat} (v : FVec Ideal (Sh2 R C) .f32) (b : FVec Ideal (Sh1 C) .f32)
    (h₁ : (Sh1 C).BroadcastsInDim (Sh2 1 C) ![1]) (h₂ : (Sh2 1 C).BroadcastsInDim (Sh2 R C) ![0, 1]) :
    addf v (broadcastInDim (Sh2 R C) ![0, 1] h₂ (broadcastInDim (Sh2 1 C) ![1] h₁ b)) = addCols v (vecFn b) := by
  funext i
  show v i + broadcastInDim (Sh2 R C) ![0, 1] h₂ (broadcastInDim (Sh2 1 C) ![1] h₁ b) i = v i + b (ix1 (i 1))
  congr 1
  refine (congrArg (broadcastInDim (Sh2 R C) ![0, 1] h₂ (broadcastInDim (Sh2 1 C) ![1] h₁ b))
    (StableHlo.Predicate.ij_eta i)).symm.trans ?_
  refine (StableHlo.Predicate.bcast_cols h₁ h₂ b (i 0) (i 1)).trans ?_
  congr 1
  funext a
  have ha : a = 0 := Subsingleton.elim _ _
  subst ha
  rfl

/-! ## A block of consecutive rows -/

/-- Rows o, …, o + R − 1 of a matrix with R' rows. -/
def rowsOf {R' C : Nat} {α : Type} (R o : Nat) (ho : o + R ≤ R') (X : (Sh2 R' C).Idx → α) : (Sh2 R C).Idx → α :=
  fun y => X (ix2 ⟨o + (y 0).val, by have := idx2_lt0 y; omega⟩ (y 1))

theorem mm_rows {R' K N : Nat} (R o : Nat) (ho : o + R ≤ R') (x : FVec Ideal (Sh2 R' K) .f32) (w : FVec Ideal (Sh2 K N) .f32) :
    mm (rowsOf R o ho x) w = rowsOf R o ho (mm x w) := rfl

theorem swishV_rows {R' C : Nat} (R o : Nat) (ho : o + R ≤ R') (v : FVec Ideal (Sh2 R' C) .f32) :
    swishV (rowsOf R o ho v) = rowsOf R o ho (swishV v) := rfl

theorem addCols_rows {R' C : Nat} (R o : Nat) (ho : o + R ≤ R') (v : FVec Ideal (Sh2 R' C) .f32) (b : Fin C → EReal) :
    addCols (rowsOf R o ho v) b = rowsOf R o ho (addCols v b) := rfl

theorem mulf_rows {R' C : Nat} (R o : Nat) (ho : o + R ≤ R') (u v : FVec Ideal (Sh2 R' C) .f32) :
    mulf (rowsOf R o ho u) (rowsOf R o ho v) = rowsOf R o ho (mulf u v) := rfl

theorem addf_rows {R' C : Nat} (R o : Nat) (ho : o + R ≤ R') (u v : FVec Ideal (Sh2 R' C) .f32) :
    addf (rowsOf R o ho u) (rowsOf R o ho v) = rowsOf R o ho (addf u v) := rfl

end Cert.RowMath

end
-- ==== Proof.Stages.lean ====
/-
  The three dense stages of the interaction block, each as one function of whole matrices, rows being edges or triplets.

  edgeStage   per edge e:      swish( ( swish(x_e · W_kj + b_kj) ⊙ ((rbf_e · W_rbf1) · W_rbf2) ) · W_down )          (64 numbers)
  tripEmb     per triplet t:   (sbf_t · W_sbf1) · W_sbf2                                                          (64 numbers)
  nodeStage   per edge e:      h0 = swish(x_e · W_ji + b_ji) + swish(agg_e · W_up)
                               h1 = res(h0; rb0),  h2 = swish(h1 · W_lin + b_lin) + x_e,  result = res(res(h2; ra0); ra1)
              where            res(h; w1 b1 w2 b2) = h + swish( swish(h · w1 + b1) · w2 + b2 )

  Every stage treats each row by itself, so a block of consecutive rows of a stage's result is the stage applied to the
  same block of rows of its tall arguments (the weights and biases are shared by all rows).
-/
import proofs.«405097_j85779086836105_3_alg».proof.Proof.RowMath

noncomputable section

open Idealize.ShloMosaic Idealize.ShloMosaic.ValueIdx Cert.RowMath

namespace Cert.Stages

/-- The edge stage: from x (R × 128) and rbf (R × 6) to the down-projected message source (R × 64). -/
def edgeStage {R : Nat} (x : FVec Ideal (Sh2 R 128) .f32) (rbf : FVec Ideal (Sh2 R 6) .f32)
    (wkj : FVec Ideal (Sh2 128 128) .f32) (bkj : Fin 128 → EReal) (wr1 : FVec Ideal (Sh2 6 8) .f32)
    (wr2 : FVec Ideal (Sh2 8 128) .f32) (wd : FVec Ideal (Sh2 128 64) .f32) : FVec Ideal (Sh2 R 64) .f32 :=
  swishV (mm (mulf (swishV (addCols (mm x wkj) bkj)) (mm (mm rbf wr1) wr2)) wd)

/-- The triplet embedding: from sbf (T × 42) to T × 64. -/
def tripEmb {T : Nat} (sbf : FVec Ideal (Sh2 T 42) .f32) (ws1 : FVec Ideal (Sh2 42 8) .f32)
    (ws2 : FVec Ideal (Sh2 8 64) .f32) : FVec Ideal (Sh2 T 64) .f32 :=
  mm (mm sbf ws1) ws2

/-- One residual layer: h + swish(swish(h · w1 + b1) · w2 + b2). -/
def resBlock {R : Nat} (h : FVec Ideal (Sh2 R 128) .f32) (w1 : FVec Ideal (Sh2 128 128) .f32) (b1 : Fin 128 → EReal)
    (w2 : FVec Ideal (Sh2 128 128) .f32) (b2 : Fin 128 → EReal) : FVec Ideal (Sh2 R 128) .f32 :=
  addf h (swishV (addCols (mm (swishV (addCols (mm h w1) b1)) w2) b2))

/-- The node stage: from the aggregated messages agg (R × 64) and x (R × 128) to the block's output (R × 128). -/
def nodeStage {R : Nat} (agg : FVec Ideal (Sh2 R 64) .f32) (x : FVec Ideal (Sh2 R 128) .f32)
    (wji : FVec Ideal (Sh2 128 128) .f32) (bji : Fin 128 → EReal) (wup : FVec Ideal (Sh2 64 128) .f32)
    (r0w1 : FVec Ideal (Sh2 128 128) .f32) (r0b1 : Fin 128 → EReal) (r0w2 : FVec Ideal (Sh2 128 128) .f32) (r0b2 : Fin 128 → EReal)
    (wlin : FVec Ideal (Sh2 128 128) .f32) (blin : Fin 128 → EReal)
    (a0w1 : FVec Ideal (Sh2 128 128) .f32) (a0b1 : Fin 128 → EReal) (a0w2 : FVec Ideal (Sh2 128 128) .f32) (a0b2 : Fin 128 → EReal)
    (a1w1 : FVec Ideal (Sh2 128 128) .f32) (a1b1 : Fin 128 → EReal) (a1w2 : FVec Ideal (Sh2 128 128) .f32) (a1b2 : Fin 128 → EReal) :
    FVec Ideal (Sh2 R 128) .f32 :=
  resBlock (resBlock
    (addf (swishV (addCols (mm
      (resBlock (addf (swishV (addCols (mm x wji) bji)) (swishV (mm agg wup))) r0w1 r0b1 r0w2 r0b2)
      wlin) blin)) x)
    a0w1 a0b1 a0w2 a0b2) a1w1 a1b1 a1w2 a1b2

/-! ## Blocks of rows -/

theorem edgeStage_rows {R' : Nat} (R o : Nat) (ho : o + R ≤ R') (x : FVec Ideal (Sh2 R' 128) .f32) (rbf : FVec Ideal (Sh2 R' 6) .f32)
    (wkj : FVec Ideal (Sh2 128 128) .f32) (bkj : Fin 128 → EReal) (wr1 : FVec Ideal (Sh2 6 8) .f32)
    (wr2 : FVec Ideal (Sh2 8 128) .f32) (wd : FVec Ideal (Sh2 128 64) .f32) :
    edgeStage (rowsOf R o ho x) (rowsOf R o ho rbf) wkj bkj wr1 wr2 wd = rowsOf R o ho (edgeStage x rbf wkj bkj wr1 wr2 wd) := rfl

theorem tripEmb_rows {T' : Nat} (T o : Nat) (ho : o + T ≤ T') (sbf : FVec Ideal (Sh2 T' 42) .f32) (ws1 : FVec Ideal (Sh2 42 8) .f32)
    (ws2 : FVec Ideal (Sh2 8 64) .f32) :
    tripEmb (rowsOf T o ho sbf) ws1 ws2 = rowsOf T o ho (tripEmb sbf ws1 ws2) := rfl

theorem resBlock_rows {R' : Nat} (R o : Nat) (ho : o + R ≤ R') (h : FVec Ideal (Sh2 R' 128) .f32) (w1 : FVec Ideal (Sh2 128 128) .f32)
    (b1 : Fin 128 → EReal) (w2 : FVec Ideal (Sh2 128 128) .f32) (b2 : Fin 128 → EReal) :
    resBlock (rowsOf R o ho h) w1 b1 w2 b2 = rowsOf R o ho (resBlock h w1 b1 w2 b2) := rfl

theorem nodeStage_rows {R' : Nat} (R o : Nat) (ho : o + R ≤ R') (agg : FVec Ideal (Sh2 R' 64) .f32) (x : FVec Ideal (Sh2 R' 128) .f32)
    (wji : FVec Ideal (Sh2 128 128) .f32) (bji : Fin 128 → EReal) (wup : FVec Ideal (Sh2 64 128) .f32)
    (r0w1 : FVec Ideal (Sh2 128 128) .f32) (r0b1 : Fin 128 → EReal) (r0w2 : FVec Ideal (Sh2 128 128) .f32) (r0b2 : Fin 128 → EReal)
    (wlin : FVec Ideal (Sh2 128 128) .f32) (blin : Fin 128 → EReal)
    (a0w1 : FVec Ideal (Sh2 128 128) .f32) (a0b1 : Fin 128 → EReal) (a0w2 : FVec Ideal (Sh2 128 128) .f32) (a0b2 : Fin 128 → EReal)
    (a1w1 : FVec Ideal (Sh2 128 128) .f32) (a1b1 : Fin 128 → EReal) (a1w2 : FVec Ideal (Sh2 128 128) .f32) (a1b2 : Fin 128 → EReal) :
    nodeStage (rowsOf R o ho agg) (rowsOf R o ho x) wji bji wup r0w1 r0b1 r0w2 r0b2 wlin blin a0w1 a0b1 a0w2 a0b2 a1w1 a1b1 a1w2 a1b2
      = rowsOf R o ho (nodeStage agg x wji bji wup r0w1 r0b1 r0w2 r0b2 wlin blin a0w1 a0b1 a0w2 a0b2 a1w1 a1b1 a1w2 a1b2) := rfl

end Cert.Stages

end
-- ==== Proof.EdgeBlock.lean ====
/-
  The edge stage of the interaction block, as the first of the three launches computes it.

  The launch walks the 200000 edges in 50 blocks of 4000 rows.  At each block it holds 4000 rows of x and of rbf and the
  whole of the five small matrices (W_kj with its bias row, W_rbf1, W_rbf2, W_down), and stores

      swish( ( swish(x · W_kj + b_kj) ⊙ ((rbf · W_rbf1) · W_rbf2) ) · W_down )

  of those rows.  On the extended reals a change of float format is the identity, so what is stored is exactly the edge
  stage of the 4000 rows; the edge stage treats every row by itself, so that is rows 4000 t … 4000 t + 3999 of the edge
  stage of the whole arrays; and the 50 blocks cover all the rows.  Hence the output array ends as the edge stage of the
  arrays the launch found.
-/
import proofs.«405097_j85779086836105_3_alg».proof.Proof.Gen.KernelIdeal.Frame
import proofs.«405097_j85779086836105_3_alg».proof.Proof.Stages
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.EdgeBlock

open Cert.KernelIdeal Cert.KernelIdeal.Gen Cert.RowMath Cert.Stages Idealize.ShloMosaic Idealize.ShloMosaic.ValueIdx

/-! ## One block: what is stored is the edge stage of the rows held -/

/-- The four products of the block are plain rows-by-columns products. -/
theorem d_4000_128_128 : dot_S4000x128_S128x128_S4000x128_1_0_0_1_n_n = DotDims.plain 4000 128 128 := rfl
theorem d_4000_6_8 : dot_S4000x6_S6x8_S4000x8_1_0_0_1_n_n = DotDims.plain 4000 6 8 := rfl
theorem d_4000_8_128 : dot_S4000x8_S8x128_S4000x128_1_0_0_1_n_n = DotDims.plain 4000 8 128 := rfl
theorem d_4000_128_64 : dot_S4000x128_S128x64_S4000x64_1_0_0_1_n_n = DotDims.plain 4000 128 64 := rfl

/-- The value the block stores, from the rows of x and rbf and the weights it holds: the four products are sums, the
    sigmoid times its argument is the swish, the broadcast bias row is added to every row, and the roundings to the
    narrow format do nothing on the extended reals. -/
theorem stored_eq_edgeStage (x : Vec Ideal S4000x128 .f32) (wkj : Vec Ideal S128x128 .f32) (bkj : Vec Ideal S1x128 .f32)
    (rbf : Vec Ideal S4000x6 .f32) (wr1 : Vec Ideal S6x8 .f32) (wr2 : Vec Ideal S8x128 .f32) (wd : Vec Ideal S128x64 .f32) :
    k0_pay1 (F := Ideal) x wkj bkj rbf wr1 wr2 wd
      = (edgeStage (R := 4000) x rbf wkj (rowVec bkj) wr1 wr2 wd : FVec Ideal (Sh2 4000 64) .f32) := by
  unfold k0_pay1
  dsimp only
  rw [d_4000_128_128, d_4000_6_8, d_4000_8_128, d_4000_128_64]
  rw [matmul_plain_zero, matmul_plain_zero, matmul_plain_zero, matmul_plain_zero]
  rw [bias_kernel]
  rfl

theorem zero_offsets : (![0, 0] : Fin 2 → Nat) = fun _ => 0 := funext fun a => by fin_cases a <;> rfl

/-- The block's output buffer after the body: its one store covers it, and every load reads a whole buffer. -/
theorem buffer_eq_edgeStage (x : Vec Ideal S4000x128 .f32) (rbf : Vec Ideal S4000x6 .f32) (wkj : Vec Ideal S128x128 .f32)
    (bkj : Vec Ideal S1x128 .f32) (wr1 : Vec Ideal S6x8 .f32) (wr2 : Vec Ideal S8x128 .f32) (wd : Vec Ideal S128x64 .f32) :
    out0_7 (F := Ideal) x rbf wkj bkj wr1 wr2 wd
      = (edgeStage (R := 4000) x rbf wkj (rowVec bkj) wr1 wr2 wd : FVec Ideal (Sh2 4000 64) .f32) := by
  unfold out0_7
  rw [View.canon_unit_zero zero_offsets]
  simp only [View.ld_unit_zero (S := S4000x128) zero_offsets, View.ld_unit_zero (S := S128x128) zero_offsets,
    View.ld_unit_zero (S := S1x128) zero_offsets, View.ld_unit_zero (S := S4000x6) zero_offsets,
    View.ld_unit_zero (S := S6x8) zero_offsets, View.ld_unit_zero (S := S8x128) zero_offsets,
    View.ld_unit_zero (S := S128x64) zero_offsets]
  exact stored_eq_edgeStage x wkj bkj rbf wr1 wr2 wd

/-! ## From the blocks to the arrays -/

section Arrays

variable (V : (c : Dev nD) → (b : Ref sig .tc) → Buf (Elt Ideal) ((c : Thread nD τ).loc b))

/-- The edge stage of the whole arrays the launch finds: x, rbf, W_kj, the bias row, W_rbf1, W_rbf2, W_down. -/
abbrev wholeStage (c : Dev nD) : FVec Ideal (Sh2 200000 64) .f32 :=
  edgeStage (R := 200000) (V c main_arg0 : FVec Ideal (Sh2 200000 128) .f32) (V c main_arg1 : FVec Ideal (Sh2 200000 6) .f32)
    (V c main_arg9 : FVec Ideal (Sh2 128 128) .f32) (rowVec (V c main_v0 : FVec Ideal (Sh2 1 128) .f32))
    (V c main_arg5 : FVec Ideal (Sh2 6 8) .f32) (V c main_arg6 : FVec Ideal (Sh2 8 128) .f32)
    (V c main_arg13 : FVec Ideal (Sh2 128 64) .f32)

/-- Where each of the eight blocks sits at grid point t: the blocks of x, of rbf and of the output are block t along
    the rows; each weight's block is the whole of its matrix. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Block t of 4000 rows ends inside the 200000 rows. -/
theorem rows_le (t : Fin cfg0.N) : 4000 * t.val + 4000 ≤ 200000 := by
  have h : t.val < 50 := lt_of_lt_of_eq t.isLt N_0
  omega

/-- An entry of a matrix is the entry of its block of rows o … o + R − 1 at the row's position inside the block. -/
theorem entry_eq_rowsOf {R' C R o : Nat} (ho : o + R ≤ R') (X : (Sh2 R' C).Idx → EReal) (y : (Sh2 R C).Idx)
    (k : (Sh2 R' C).Idx) (h0 : (k 0).val = o + (y 0).val) (h1 : (k 1).val = (y 1).val) :
    X k = rowsOf R o ho X y := by
  unfold rowsOf
  refine congrArg X ?_
  funext a; apply Fin.ext
  match a with
  | ⟨0, _⟩ => exact h0
  | ⟨1, _⟩ => exact h1

/-- The block of x at point t is rows 4000 t … 4000 t + 3999 of x. -/
theorem rows_x (c : Dev nD) (t : Fin cfg0.N) :
    (iblk0 (F := Ideal) V c 0 t : S4000x128.Idx → EReal)
      = rowsOf 4000 (4000 * t.val) (rows_le t) (V c main_arg0 : (Sh2 200000 128).Idx → EReal) := by
  obtain ⟨e0, e1, -⟩ := block_indices t
  funext y
  refine entry_eq_rowsOf (rows_le t) (V c main_arg0 : (Sh2 200000 128).Idx → EReal) y (((cfg0.win 0).blk t).view.emb y) ?_ ?_
  · show win0_0.index t (0 : Fin 2) * 4000 + 1 * (y 0).val = 4000 * t.val + (y 0).val; omega
  · show win0_0.index t (1 : Fin 2) * 128 + 1 * (y 1).val = (y 1).val; omega

/-- The block of rbf at point t is rows 4000 t … 4000 t + 3999 of rbf. -/
theorem rows_rbf (c : Dev nD) (t : Fin cfg0.N) :
    (iblk0 (F := Ideal) V c 1 t : S4000x6.Idx → EReal)
      = rowsOf 4000 (4000 * t.val) (rows_le t) (V c main_arg1 : (Sh2 200000 6).Idx → EReal) := by
  obtain ⟨-, -, e0, e1, -⟩ := block_indices t
  funext y
  refine entry_eq_rowsOf (rows_le t) (V c main_arg1 : (Sh2 200000 6).Idx → EReal) y (((cfg0.win 1).blk t).view.emb y) ?_ ?_
  · show win0_1.index t (0 : Fin 2) * 4000 + 1 * (y 0).val = 4000 * t.val + (y 0).val; omega
  · show win0_1.index t (1 : Fin 2) * 6 + 1 * (y 1).val = (y 1).val; omega

/-- The block of W_kj at every point is all of W_kj. -/
theorem whole_wkj (c : Dev nD) (t : Fin cfg0.N) :
    (iblk0 (F := Ideal) V c 2 t : S128x128.Idx → EReal) = (V c main_arg9 : (Sh2 128 128).Idx → EReal) := by
  obtain ⟨-, -, -, -, e0, e1, -⟩ := block_indices t
  funext y
  show (V c main_arg9 : (Sh2 128 128).Idx → EReal) (((cfg0.win 2).blk t).view.emb y) = (V c main_arg9 : (Sh2 128 128).Idx → EReal) y
  refine congrArg _ ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The block of the bias row at every point is the whole row. -/
theorem whole_bkj (c : Dev nD) (t : Fin cfg0.N) :
    (iblk0 (F := Ideal) V c 3 t : S1x128.Idx → EReal) = (V c main_v0 : (Sh2 1 128).Idx → EReal) := by
  obtain ⟨-, -, -, -, -, -, e0, e1, -⟩ := block_indices t
  funext y
  show (V c main_v0 : (Sh2 1 128).Idx → EReal) (((cfg0.win 3).blk t).view.emb y) = (V c main_v0 : (Sh2 1 128).Idx → EReal) y
  refine congrArg _ ?_
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The block of W_rbf1 at every point is all of W_rbf1. -/
theorem whole_wr1 (c : Dev nD) (t : Fin cfg0.N) :
    (iblk0 (F := Ideal) V c 4 t : S6x8.Idx → EReal) = (V c main_arg5 : (Sh2 6 8).Idx → EReal) := by
  obtain ⟨-, -, -, -, -, -, -, -, e0, e1, -⟩ := block_indices t
  funext y
  show (V c main_arg5 : (Sh2 6 8).Idx → EReal) (((cfg0.win 4).blk t).view.emb y) = (V c main_arg5 : (Sh2 6 8).Idx → EReal) y
  refine congrArg _ ?_
  funext a; apply Fin.ext
  match a with
  | ⟨0, _⟩ => show win0_4.index t (0 : Fin 2) * 6 + 1 * (y 0).val = (y 0).val; omega
  | ⟨1, _⟩ => show win0_4.index t (1 : Fin 2) * 8 + 1 * (y 1).val = (y 1).val; omega

/-- The block of W_rbf2 at every point is all of W_rbf2. -/
theorem whole_wr2 (c : Dev nD) (t : Fin cfg0.N) :
    (iblk0 (F := Ideal) V c 5 t : S8x128.Idx → EReal) = (V c main_arg6 : (Sh2 8 128).Idx → EReal) := by
  obtain ⟨-, -, -, -, -, -, -, -, -, -, e0, e1, -⟩ := block_indices t
  funext y
  show (V c main_arg6 : (Sh2 8 128).Idx → EReal) (((cfg0.win 5).blk t).view.emb y) = (V c main_arg6 : (Sh2 8 128).Idx → EReal) y
  refine congrArg _ ?_
  funext a; apply Fin.ext
  match a with
  | ⟨0, _⟩ => show win0_5.index t (0 : Fin 2) * 8 + 1 * (y 0).val = (y 0).val; omega
  | ⟨1, _⟩ => show win0_5.index t (1 : Fin 2) * 128 + 1 * (y 1).val = (y 1).val; omega

/-- The block of W_down at every point is all of W_down. -/
theorem whole_wd (c : Dev nD) (t : Fin cfg0.N) :
    (iblk0 (F := Ideal) V c 6 t : S128x64.Idx → EReal) = (V c main_arg13 : (Sh2 128 64).Idx → EReal) := by
  obtain ⟨-, -, -, -, -, -, -, -, -, -, -, -, e0, e1, -⟩ := block_indices t
  funext y
  show (V c main_arg13 : (Sh2 128 64).Idx → EReal) (((cfg0.win 6).blk t).view.emb y) = (V c main_arg13 : (Sh2 128 64).Idx → EReal) y
  refine congrArg _ ?_
  funext a; apply Fin.ext
  match a with
  | ⟨0, _⟩ => show win0_6.index t (0 : Fin 2) * 128 + 1 * (y 0).val = (y 0).val; omega
  | ⟨1, _⟩ => show win0_6.index t (1 : Fin 2) * 64 + 1 * (y 1).val = (y 1).val; omega

/-- WHAT POINT t WRITES BACK: rows 4000 t … 4000 t + 3999 of the edge stage of the whole arrays, because the edge stage
    treats every row by itself. -/
theorem flushed_eq (c : Dev nD) (t : Fin cfg0.N) :
    (dat0 (F := Ideal) V c).flushed 7 t = ((cfg0.win 7).blk t).view.read (Elt Ideal) (wholeStage V c) := by
  show (cfg0.win 7).cut (grid0.coords t) ((dat0 (F := Ideal) V c).after 7 t) = _
  rw [after0_7]
  rw [rows_x V c t, rows_rbf V c t, whole_wkj V c t, whole_bkj V c t, whole_wr1 V c t, whole_wr2 V c t, whole_wd V c t]
  rw [buffer_eq_edgeStage, edgeStage_rows]
  obtain ⟨-, -, -, -, -, -, -, -, -, -, -, -, -, -, e0, e1⟩ := block_indices t
  funext y
  refine (entry_eq_rowsOf (rows_le t) (wholeStage V c) y (((cfg0.win 7).blk t).view.emb y) ?_ ?_).symm
  · show win0_7.index t (0 : Fin 2) * 4000 + 1 * (y 0).val = 4000 * t.val + (y 0).val; omega
  · show win0_7.index t (1 : Fin 2) * 64 + 1 * (y 1).val = (y 1).val; omega

/-- An entry of the output array is in point t's block iff its row and column are in the block's ranges. -/
theorem mem_block (t : Fin cfg0.N) (i : S200000x64.Idx) :
    i ∈ ((cfg0.win 7).blk t).view.set ↔ ∀ a : Fin 2, win0_7.index t a * S4000x64.size a ≤ (i a).val ∧ (i a).val < win0_7.index t a * S4000x64.size a + S4000x64.size a := by
  show i ∈ ((View.whole main_v9).slice (win0_7.rect t)).set ↔ _
  rw [View.set_slice_whole, Rect.mem_set_unit]
  exact Iff.rfl

/-- THE COVER: row r of the 200000 lies in the block of point r / 4000, and every point writes its block back. -/
theorem cover (i : S200000x64.Idx) :
    ∃ t : Fin cfg0.N, (cfg0.win 7).flush t = true ∧ i ∈ ((cfg0.win 7).blk t).view.set := by
  have hi0 : (i 0).val < 200000 := (i 0).isLt
  have hi1 : (i 1).val < 64 := (i 1).isLt
  obtain ⟨t, ht⟩ : ∃ t : Fin cfg0.N, t.val = (i 0).val / 4000 :=
    ⟨⟨(i 0).val / 4000, lt_of_lt_of_eq (by omega) N_0.symm⟩, rfl⟩
  obtain ⟨-, -, -, -, -, -, -, -, -, -, -, -, -, -, e0, e1⟩ := block_indices t
  refine ⟨t, flush0_7 t, ?_⟩
  rw [mem_block]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 64 ≤ (i 1).val ∧ (i 1).val < win0_7.index t (1 : Fin 2) * 64 + 64; omega

/-- THE OUTPUT ARRAY after the launch is the edge stage of the arrays the launch found. -/
theorem edge_final (c : Dev nD) :
    (dat0 (F := Ideal) V c).arrAt 7 cfg0.N
      = (edgeStage (V c main_arg0) (V c main_arg1) (V c main_arg9) (rowVec (V c main_v0)) (V c main_arg5) (V c main_arg6)
          (V c main_arg13) : FVec Ideal (Sh2 200000 64) .f32) :=
  (dat0 (F := Ideal) V c).arrAt_eq_of_cover 7 (wholeStage V c) (fun t _ => flushed_eq V c t) cover

end Arrays

end Cert.KernelIdeal.EdgeBlock

end
-- ==== Proof.TripBlock.lean ====
/-
  The triplet stage of the interaction block, from row blocks to the whole array.

  For every triplet t the kernel computes (sbf_t · W_sbf1) · W_sbf2, a row of 64 numbers, and multiplies it entry by
  entry with the gathered row of the down-projected messages.  It does so 8000 triplets at a time: grid point t reads
  rows 8000 t … 8000 t + 7999 of the two tall arrays and both small weight matrices whole, and writes rows
  8000 t … 8000 t + 7999 of the result.  On the extended reals a change of float format is the identity and the vector
  unit's matrix product into a zero accumulator is the plain sum, so what a point stores is the stage function
  mulf (tripEmb · · ·) · of its blocks (pay_eq, out_eq).  The stage treats each row by itself, so that is rows
  8000 t … 8000 t + 7999 of the stage function of the whole arrays (flushed_eq).  The 250 blocks of 8000 rows cover all
  2000000 rows (cover), hence the result array ends holding the stage function of the whole arrays (trip_final).
-/
import proofs.«405097_j85779086836105_3_alg».proof.Proof.Gen.KernelIdeal.Frame
import proofs.«405097_j85779086836105_3_alg».proof.Proof.Stages
import Idealize.ShloMosaic.Lib.Pipeline.Value

noncomputable section

namespace Cert.KernelIdeal.TripBlock

open Cert.KernelIdeal Cert.KernelIdeal.Gen Cert.RowMath Cert.Stages Idealize.ShloMosaic Idealize.ShloMosaic.ValueIdx
open Idealize.ShloMosaic.TcCoe Idealize.SL.Sem
open Idealize.ShloMosaic.Pipeline (Dat)

/-! ## What one grid point stores: the stage function of its blocks -/

/-- The two zero offsets of a whole-block access, as the constant function. -/
theorem hz : (![0, 0] : Fin 2 → Nat) = fun _ => 0 := funext fun a => by fin_cases a <;> rfl

/-- sbf block (8000 × 42) times W_sbf1 (42 × 8): the plain product. -/
theorem dims_sbf_w1 : dot_S8000x42_S42x8_S8000x8_1_0_0_1_n_n = DotDims.plain 8000 42 8 := rfl
/-- (8000 × 8) times W_sbf2 (8 × 64): the plain product. -/
theorem dims_emb_w2 : dot_S8000x8_S8x64_S8000x64_1_0_0_1_n_n = DotDims.plain 8000 8 64 := rfl

/-- The stored value, as a term of the four loaded blocks: the roundings to the narrow format and back are the
    identity on the extended reals, each product into a zero accumulator is the sum, and a cast to the same shape does
    nothing; what is left is (sbf · W1 · W2) ⊙ gathered. -/
theorem pay_eq (x0 : Vec Ideal S8000x42 .f32) (w1 : Vec Ideal S42x8 .f32) (w2 : Vec Ideal S8x64 .f32)
    (g : Vec Ideal S8000x64 .bf16) :
    k1_pay1 (F := Ideal) x0 w1 w2 g
      = mulf (tripEmb (T := 8000) x0 w1 w2) (g : FVec Ideal (Sh2 8000 64) .f32) := by
  unfold k1_pay1
  dsimp only
  rw [dims_sbf_w1, dims_emb_w2, matmul_plain_zero, matmul_plain_zero, shapeCast_self]
  rfl

/-- The output block after the body: its one store covers the block, and every load reads a whole block. -/
theorem out_eq (x0 : Vec Ideal S8000x42 .f32) (x1 : Vec Ideal S8000x64 .bf16) (x2 : Vec Ideal S42x8 .f32)
    (x3 : Vec Ideal S8x64 .f32) :
    out1_4 (F := Ideal) x0 x1 x2 x3
      = mulf (tripEmb (T := 8000) x0 x2 x3) (x1 : FVec Ideal (Sh2 8000 64) .f32) := by
  unfold out1_4
  rw [View.canon_unit_zero hz]
  simp only [View.ld_unit_zero (S := S8000x42) hz, View.ld_unit_zero (S := S42x8) hz,
    View.ld_unit_zero (S := S8x64) hz, View.ld_unit_zero (S := S8000x64) hz]
  exact pay_eq x0 x2 x3 x1

/-! ## The blocks a grid point sees are rows of the arrays -/

variable (V : (c : Dev nD) → (b : Ref sig .tc) → Buf (Elt Ideal) ((c : Thread nD τ).loc b))

/-- The block indices, decided over the 250 grid points: the three tall windows (sbf, the gathered rows, the result)
    are at row block t and column block 0; the two weight matrices are always at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row block t ends inside the 2000000 rows: t < 250. -/
theorem rows_le (t : Fin cfg1.N) : 8000 * t.val + 8000 ≤ 2000000 := by
  have h : t.val < 250 := t.isLt.trans_eq N_1
  omega

/-- The sbf block at point t is rows 8000 t … 8000 t + 7999 of sbf. -/
theorem blk_sbf (c : Dev nD) (t : Fin cfg1.N) :
    (iblk1 V c 0 t : FVec Ideal (Sh2 8000 42) .f32)
      = rowsOf 8000 (8000 * t.val) (rows_le t) (V c main_arg2 : FVec Ideal (Sh2 2000000 42) .f32) := by
  obtain ⟨e0, e1, -⟩ := idx_facts t
  funext y
  unfold iblk1 rowsOf
  rw [View.read_apply]
  show (V c main_arg2 : S2000000x42.Idx → EReal) _ = V c main_arg2 _
  congr 1
  funext a; apply Fin.ext
  match a with
  | ⟨0, _⟩ => show win1_0.index t (0 : Fin 2) * 8000 + 1 * (y 0).val = 8000 * t.val + (y 0).val; rw [e0]; omega
  | ⟨1, _⟩ => show win1_0.index t (1 : Fin 2) * 42 + 1 * (y 1).val = (y 1).val; rw [e1]; omega

/-- The gathered block at point t is rows 8000 t … 8000 t + 7999 of the gathered array. -/
theorem blk_gathered (c : Dev nD) (t : Fin cfg1.N) :
    (iblk1 V c 1 t : FVec Ideal (Sh2 8000 64) .f32)
      = rowsOf 8000 (8000 * t.val) (rows_le t) (V c main_v10 : FVec Ideal (Sh2 2000000 64) .f32) := by
  obtain ⟨-, -, e0, e1, -⟩ := idx_facts t
  funext y
  unfold iblk1 rowsOf
  rw [View.read_apply]
  show (V c main_v10 : S2000000x64.Idx → EReal) _ = V c main_v10 _
  congr 1
  funext a; apply Fin.ext
  match a with
  | ⟨0, _⟩ => show win1_1.index t (0 : Fin 2) * 8000 + 1 * (y 0).val = 8000 * t.val + (y 0).val; rw [e0]; omega
  | ⟨1, _⟩ => show win1_1.index t (1 : Fin 2) * 64 + 1 * (y 1).val = (y 1).val; rw [e1]; omega

/-- Every point sees W_sbf1 whole. -/
theorem blk_w1 (c : Dev nD) (t : Fin cfg1.N) :
    (iblk1 V c 2 t : FVec Ideal (Sh2 42 8) .f32) = V c main_arg7 := by
  obtain ⟨-, -, -, -, e0, e1, -⟩ := idx_facts t
  funext y
  unfold iblk1
  rw [View.read_apply]
  show (V c main_arg7 : S42x8.Idx → EReal) _ = V c main_arg7 y
  congr 1
  funext a; apply Fin.ext
  match a with
  | ⟨0, _⟩ => show win1_2.index t (0 : Fin 2) * 42 + 1 * (y 0).val = (y 0).val; rw [e0]; omega
  | ⟨1, _⟩ => show win1_2.index t (1 : Fin 2) * 8 + 1 * (y 1).val = (y 1).val; rw [e1]; omega

/-- Every point sees W_sbf2 whole. -/
theorem blk_w2 (c : Dev nD) (t : Fin cfg1.N) :
    (iblk1 V c 3 t : FVec Ideal (Sh2 8 64) .f32) = V c main_arg8 := by
  obtain ⟨-, -, -, -, -, -, e0, e1, -⟩ := idx_facts t
  funext y
  unfold iblk1
  rw [View.read_apply]
  show (V c main_arg8 : S8x64.Idx → EReal) _ = V c main_arg8 y
  congr 1
  funext a; apply Fin.ext
  match a with
  | ⟨0, _⟩ => show win1_3.index t (0 : Fin 2) * 8 + 1 * (y 0).val = (y 0).val; rw [e0]; omega
  | ⟨1, _⟩ => show win1_3.index t (1 : Fin 2) * 64 + 1 * (y 1).val = (y 1).val; rw [e1]; omega

/-- The result's block at point t, read off any 2000000 × 64 array, is rows 8000 t … 8000 t + 7999 of it. -/
theorem read_out (t : Fin cfg1.N) (X : FVec Ideal (Sh2 2000000 64) .f32) :
    ((cfg1.win 4).blk t).view.read (Elt Ideal) X
      = (cfg1.win 4).cut (grid1.coords t) (rowsOf 8000 (8000 * t.val) (rows_le t) X) := by
  obtain ⟨-, -, -, -, -, -, -, -, e0, e1⟩ := idx_facts t
  funext y
  unfold rowsOf
  rw [View.read_apply]
  show X _ = X _
  congr 1
  funext a; apply Fin.ext
  match a with
  | ⟨0, _⟩ => show win1_4.index t (0 : Fin 2) * 8000 + 1 * (y 0).val = 8000 * t.val + (y 0).val; rw [e0]; omega
  | ⟨1, _⟩ => show win1_4.index t (1 : Fin 2) * 64 + 1 * (y 1).val = (y 1).val; rw [e1]; omega

/-! ## What point t writes back -/

/-- The stage function of the whole arrays as the region finds them: (sbf · W_sbf1 · W_sbf2) ⊙ gathered. -/
abbrev tripOut (c : Dev nD) : FVec Ideal (Sh2 2000000 64) .f32 :=
  mulf (tripEmb (V c main_arg2) (V c main_arg7) (V c main_arg8)) (V c main_v10 : FVec Ideal (Sh2 2000000 64) .f32)

/-- Point t writes back rows 8000 t … 8000 t + 7999 of tripOut: the stage of a block of rows is that block of rows of
    the stage. -/
theorem flushed_eq (c : Dev nD) (t : Fin cfg1.N) :
    (dat1 (F := Ideal) V c).flushed 4 t = ((cfg1.win 4).blk t).view.read (Elt Ideal) (tripOut V c) := by
  show (cfg1.win 4).cut (grid1.coords t) ((dat1 V c).after 4 t) = _
  rw [after1_4, read_out t (tripOut V c)]
  refine congrArg ((cfg1.win 4).cut (grid1.coords t)) ?_
  rw [out_eq, blk_sbf V c t, blk_gathered V c t, blk_w1 V c t, blk_w2 V c t, tripEmb_rows, mulf_rows]

/-! ## The blocks cover the array -/

/-- A row and column are in point t's block iff they are in its range on each axis. -/
theorem mem_blk (t : Fin cfg1.N) (i : S2000000x64.Idx) :
    i ∈ ((cfg1.win 4).blk t).view.set ↔ ∀ a : Fin 2, win1_4.index t a * S8000x64.size a ≤ (i a).val
      ∧ (i a).val < win1_4.index t a * S8000x64.size a + S8000x64.size a := by
  show i ∈ ((View.whole main_v11).slice (win1_4.rect t)).set ↔ _
  rw [View.set_slice_whole, Rect.mem_set_unit]
  exact Iff.rfl

/-- Row r lies in the block of point r / 8000, and every point writes its block back. -/
theorem cover (i : S2000000x64.Idx) :
    ∃ t : Fin cfg1.N, (cfg1.win 4).flush t = true ∧ i ∈ ((cfg1.win 4).blk t).view.set := by
  have hi0 : (i 0).val < 2000000 := (i 0).isLt
  have hi1 : (i 1).val < 64 := (i 1).isLt
  obtain ⟨t, ht⟩ : ∃ t : Fin cfg1.N, t.val = (i 0).val / 8000 :=
    ⟨⟨(i 0).val / 8000, by show (i 0).val / 8000 < grid1.N; rw [N_1]; omega⟩, rfl⟩
  obtain ⟨-, -, -, -, -, -, -, -, e0, e1⟩ := idx_facts t
  refine ⟨t, flush1_4 t, ?_⟩
  rw [mem_blk]
  intro a
  match a with
  | ⟨0, _⟩ =>
    show win1_4.index t (0 : Fin 2) * 8000 ≤ (i 0).val ∧ (i 0).val < win1_4.index t (0 : Fin 2) * 8000 + 8000
    rw [e0, ht]; omega
  | ⟨1, _⟩ =>
    show win1_4.index t (1 : Fin 2) * 64 ≤ (i 1).val ∧ (i 1).val < win1_4.index t (1 : Fin 2) * 64 + 64
    rw [e1]; omega

/-! ## The result array after the region -/

/-- After the 250 write-backs the result array holds (sbf · W_sbf1 · W_sbf2) ⊙ gathered, of the arrays as the region
    found them. -/
theorem trip_final (c : Dev nD) :
    (dat1 (F := Ideal) V c).arrAt 4 cfg1.N
      = (mulf (tripEmb (V c main_arg2) (V c main_arg7) (V c main_arg8))
          (V c main_v10 : FVec Ideal (Sh2 2000000 64) .f32) : FVec Ideal (Sh2 2000000 64) .f32) :=
  (dat1 (F := Ideal) V c).arrAt_eq_of_cover 4 (tripOut V c) (fun t _ => flushed_eq V c t) cover

end Cert.KernelIdeal.TripBlock

end
-- ==== Proof.NodeBlock.lean ====
/-
  The node stage of the interaction block, read off the third kernel.

  The kernel works on blocks of 4000 consecutive edges.  From a block of the aggregated messages agg (4000 × 64) and
  the same rows of x (4000 × 128), and the shared weights and biases, its one stored value is

    h0 = swish(x · W_ji + b_ji) + swish(agg · W_up)
    h1 = h0 + swish( swish(h0 · w1 + b1) · w2 + b2 )                      (the residual layer before the skip)
    h2 = swish(h1 · W_lin + b_lin) + x
    h3 = res(h2),  result = res(h3)                                       (the two residual layers after the skip)

  which is nodeStage of the blocks.  The operands of every matrix product are narrowed to bf16 first; on the extended
  reals a change of format is the identity, so each product is the plain sum mm.  Every row of the result depends on
  the same row of agg and of x only, so the block written back at point t is rows 4000 t … 4000 t + 3999 of nodeStage of
  the WHOLE arrays; the fifty blocks cover the 200000 rows, so the array ends holding nodeStage of the whole arrays.
-/
import proofs.«405097_j85779086836105_3_alg».proof.Proof.Gen.KernelIdeal.Frame
import proofs.«405097_j85779086836105_3_alg».proof.Proof.Stages
import Idealize.ShloMosaic.Lib.Pipeline.Value

set_option maxRecDepth 16384

noncomputable section

namespace Cert.KernelIdeal.NodeBlock

open Cert.KernelIdeal Cert.KernelIdeal.Gen Cert.RowMath Cert.Stages Idealize.ShloMosaic Idealize.ShloMosaic.ValueIdx
open Idealize.ShloMosaic.TcCoe
open Idealize.ShloMosaic.Pipeline (Dat)

/-! ## The body's stored value is the node stage of its blocks -/

/-- The two contractions of this kernel are plain row-by-column products. -/
theorem d_4000_128_128 : dot_S4000x128_S128x128_S4000x128_1_0_0_1_n_n = DotDims.plain 4000 128 128 := rfl
theorem d_4000_64_128 : dot_S4000x64_S64x128_S4000x128_1_0_0_1_n_n = DotDims.plain 4000 64 128 := rfl

/-- A 4000 × 128 by 128 × 128 product of the vector unit, operands narrowed to bf16, into a zero accumulator: the sum. -/
theorem mxu_128 (a : FVec Ideal S4000x128 .f32) (w : FVec Ideal S128x128 .f32) (h h' : FTy.bits .bf16 < FTy.bits .f32) :
    matmul dot_S4000x128_S128x128_S4000x128_1_0_0_1_n_n none (truncf .bf16 a h) (truncf .bf16 w h')
      (constant (F := Ideal) S4000x128 .f32 0x00000000#32) = mm a w := by
  rw [d_4000_128_128]
  exact matmul_plain_zero none _ _

/-- The 4000 × 64 by 64 × 128 product likewise. -/
theorem mxu_64 (a : FVec Ideal S4000x64 .f32) (w : FVec Ideal S64x128 .f32) (h h' : FTy.bits .bf16 < FTy.bits .f32) :
    matmul dot_S4000x64_S64x128_S4000x128_1_0_0_1_n_n none (truncf .bf16 a h) (truncf .bf16 w h')
      (constant (F := Ideal) S4000x128 .f32 0x00000000#32) = mm a w := by
  rw [d_4000_64_128]
  exact matmul_plain_zero none _ _

/-- h0: the two embeddings of an edge, x_ji from x and x_kj from the aggregated messages, added. -/
theorem pay2_eq (v0 : Vec Ideal S4000x128 .f32) (v2 : Vec Ideal S128x128 .f32) (v5 : Vec Ideal S1x128 .f32)
    (v11 : Vec Ideal S4000x64 .f32) (v14 : Vec Ideal S64x128 .f32) :
    k2_pay2 (F := Ideal) v0 v2 v5 v11 v14 = addf (swishV (addCols (mm v0 v2) (rowVec v5))) (swishV (mm v11 v14)) := by
  unfold k2_pay2
  dsimp only
  rw [mxu_128, mxu_64, bias_kernel, shapeCast_self, swish_kernel, swish_kernel]

/-- The first residual layer's second product, before its bias: swish(h0 · w1 + b1) · w2. -/
theorem pay3_eq (v0 : Vec Ideal S4000x128 .f32) (v2 : Vec Ideal S128x128 .f32) (v5 : Vec Ideal S1x128 .f32)
    (v11 : Vec Ideal S4000x64 .f32) (v14 : Vec Ideal S64x128 .f32) (v21 : Vec Ideal S128x128 .f32)
    (v24 : Vec Ideal S1x128 .f32) (v31 : Vec Ideal S128x128 .f32) :
    k2_pay3 (F := Ideal) v0 v2 v5 v11 v14 v21 v24 v31
      = mm (swishV (addCols (mm (k2_pay2 (F := Ideal) v0 v2 v5 v11 v14) v21) (rowVec v24))) v31 := by
  unfold k2_pay3
  dsimp only
  rw [mxu_128, bias_kernel, swish_kernel, mxu_128]

/-- Adding the broadcast bias row b2 is adding b2 to every row. -/
theorem pay4_add (v33 : FVec Ideal S4000x128 .f32) (v34 : Vec Ideal S1x128 .f32) :
    addf v33 (k2_pay4 (F := Ideal) v34) = addCols v33 (rowVec v34) := by
  unfold k2_pay4
  dsimp only
  rw [bias_kernel]

/-- From h0 and the pieces of the first residual layer to h3: the residual layer closed, the w_lin layer with the
    skip connection to x, and the next residual layer. -/
theorem pay5_eq (v0 : Vec Ideal S4000x128 .f32) (v19 v33 v36 : FVec Ideal S4000x128 .f32)
    (v42 : Vec Ideal S128x128 .f32) (v45 : Vec Ideal S1x128 .f32) (v53 : Vec Ideal S128x128 .f32)
    (v56 : Vec Ideal S1x128 .f32) (v63 : Vec Ideal S128x128 .f32) (v66 : Vec Ideal S1x128 .f32) :
    k2_pay5 (F := Ideal) v0 v19 v33 v36 v42 v45 v53 v56 v63 v66
      = resBlock (addf (swishV (addCols (mm (addf v19 (swishV (addf v33 v36))) v42) (rowVec v45))) v0)
          v53 (rowVec v56) v63 (rowVec v66) := by
  unfold k2_pay5
  dsimp only
  rw [swish_kernel, mxu_128, bias_kernel, swish_kernel, mxu_128, bias_kernel, swish_kernel, mxu_128, bias_kernel, swish_kernel]
  rfl

/-- The last residual layer's first product, before its bias: h3 · w1. -/
theorem pay6_eq (v0 : Vec Ideal S4000x128 .f32) (v19 v33 v36 : FVec Ideal S4000x128 .f32)
    (v42 : Vec Ideal S128x128 .f32) (v45 : Vec Ideal S1x128 .f32) (v53 : Vec Ideal S128x128 .f32)
    (v56 : Vec Ideal S1x128 .f32) (v63 : Vec Ideal S128x128 .f32) (v66 : Vec Ideal S1x128 .f32) (v74 : Vec Ideal S128x128 .f32) :
    k2_pay6 (F := Ideal) v0 v19 v33 v36 v42 v45 v53 v56 v63 v66 v74
      = mm (k2_pay5 (F := Ideal) v0 v19 v33 v36 v42 v45 v53 v56 v63 v66) v74 := by
  unfold k2_pay6
  dsimp only
  rw [mxu_128]

/-- The stored value: h3 plus swish(swish(u + b1) · w2 + b2), u the product h3 · w1 computed before. -/
theorem pay1_eq (v72 v76 : FVec Ideal S4000x128 .f32) (v77 : Vec Ideal S1x128 .f32) (v84 : Vec Ideal S128x128 .f32)
    (v87 : Vec Ideal S1x128 .f32) :
    k2_pay1 (F := Ideal) v72 v76 v77 v84 v87
      = addf v72 (swishV (addCols (mm (swishV (addCols v76 (rowVec v77))) v84) (rowVec v87))) := by
  unfold k2_pay1
  dsimp only
  rw [bias_kernel, swish_kernel, mxu_128, bias_kernel, swish_kernel]

theorem zero_offsets : (![0, 0] : Fin 2 → Nat) = fun _ => 0 := funext fun a => by fin_cases a <;> rfl

/-- The buffer of the output window after the body, from the nineteen input blocks: the node stage of the blocks. -/
theorem out_eq (x0 : Vec Ideal S4000x64 .f32) (x1 : Vec Ideal S4000x128 .f32) (x2 : Vec Ideal S128x128 .f32)
    (x3 : Vec Ideal S1x128 .f32) (x4 : Vec Ideal S64x128 .f32) (x5 : Vec Ideal S128x128 .f32) (x6 : Vec Ideal S1x128 .f32)
    (x7 : Vec Ideal S128x128 .f32) (x8 : Vec Ideal S1x128 .f32) (x9 : Vec Ideal S128x128 .f32) (x10 : Vec Ideal S1x128 .f32)
    (x11 : Vec Ideal S128x128 .f32) (x12 : Vec Ideal S1x128 .f32) (x13 : Vec Ideal S128x128 .f32) (x14 : Vec Ideal S1x128 .f32)
    (x15 : Vec Ideal S128x128 .f32) (x16 : Vec Ideal S1x128 .f32) (x17 : Vec Ideal S128x128 .f32) (x18 : Vec Ideal S1x128 .f32) :
    out2_19 (F := Ideal) x0 x1 x2 x3 x4 x5 x6 x7 x8 x9 x10 x11 x12 x13 x14 x15 x16 x17 x18
      = nodeStage x0 x1 x2 (rowVec x3) x4 x5 (rowVec x6) x7 (rowVec x8) x9 (rowVec x10)
          x11 (rowVec x12) x13 (rowVec x14) x15 (rowVec x16) x17 (rowVec x18) := by
  unfold out2_19
  rw [View.canon_unit_zero zero_offsets]
  simp only [View.ld_unit_zero (S := S4000x128) zero_offsets, View.ld_unit_zero (S := S128x128) zero_offsets,
    View.ld_unit_zero (S := S1x128) zero_offsets, View.ld_unit_zero (S := S4000x64) zero_offsets,
    View.ld_unit_zero (S := S64x128) zero_offsets]
  rw [pay1_eq, pay6_eq, pay5_eq, pay4_add, pay3_eq, pay2_eq]
  rfl

/-! ## The blocks of a point are rows of the arrays

Point t of the fifty reads rows 4000 t … 4000 t + 3999 of agg and of x, and every weight and bias whole. -/

section Blocks

variable (V : (c : Dev nD) → (b : Ref sig .tc) → Buf (Elt Ideal) ((c : Thread nD τ).loc b))

/-- The block index of the two tall inputs and of the output is (t, 0). -/
theorem idx_tall : ∀ t : Fin cfg2.N,
    win2_0.index t (0 : Fin 2) = t.val ∧ win2_0.index t (1 : Fin 2) = 0
    ∧ win2_1.index t (0 : Fin 2) = t.val ∧ win2_1.index t (1 : Fin 2) = 0
    ∧ win2_19.index t (0 : Fin 2) = t.val ∧ win2_19.index t (1 : Fin 2) = 0 :=
  (by decide +kernel : ∀ t : Fin grid2.N, _)

/-- The block index of every weight and bias is (0, 0) at every point. -/
theorem idx_w2 : ∀ (t : Fin cfg2.N) (a : Fin 2), win2_2.index t a = 0 := (by decide +kernel : ∀ (t : Fin grid2.N) (a : Fin 2), _)
theorem idx_w3 : ∀ (t : Fin cfg2.N) (a : Fin 2), win2_3.index t a = 0 := (by decide +kernel : ∀ (t : Fin grid2.N) (a : Fin 2), _)
theorem idx_w4 : ∀ (t : Fin cfg2.N) (a : Fin 2), win2_4.index t a = 0 := (by decide +kernel : ∀ (t : Fin grid2.N) (a : Fin 2), _)
theorem idx_w5 : ∀ (t : Fin cfg2.N) (a : Fin 2), win2_5.index t a = 0 := (by decide +kernel : ∀ (t : Fin grid2.N) (a : Fin 2), _)
theorem idx_w6 : ∀ (t : Fin cfg2.N) (a : Fin 2), win2_6.index t a = 0 := (by decide +kernel : ∀ (t : Fin grid2.N) (a : Fin 2), _)
theorem idx_w7 : ∀ (t : Fin cfg2.N) (a : Fin 2), win2_7.index t a = 0 := (by decide +kernel : ∀ (t : Fin grid2.N) (a : Fin 2), _)
theorem idx_w8 : ∀ (t : Fin cfg2.N) (a : Fin 2), win2_8.index t a = 0 := (by decide +kernel : ∀ (t : Fin grid2.N) (a : Fin 2), _)
theorem idx_w9 : ∀ (t : Fin cfg2.N) (a : Fin 2), win2_9.index t a = 0 := (by decide +kernel : ∀ (t : Fin grid2.N) (a : Fin 2), _)
theorem idx_w10 : ∀ (t : Fin cfg2.N) (a : Fin 2), win2_10.index t a = 0 := (by decide +kernel : ∀ (t : Fin grid2.N) (a : Fin 2), _)
theorem idx_w11 : ∀ (t : Fin cfg2.N) (a : Fin 2), win2_11.index t a = 0 := (by decide +kernel : ∀ (t : Fin grid2.N) (a : Fin 2), _)
theorem idx_w12 : ∀ (t : Fin cfg2.N) (a : Fin 2), win2_12.index t a = 0 := (by decide +kernel : ∀ (t : Fin grid2.N) (a : Fin 2), _)
theorem idx_w13 : ∀ (t : Fin cfg2.N) (a : Fin 2), win2_13.index t a = 0 := (by decide +kernel : ∀ (t : Fin grid2.N) (a : Fin 2), _)
theorem idx_w14 : ∀ (t : Fin cfg2.N) (a : Fin 2), win2_14.index t a = 0 := (by decide +kernel : ∀ (t : Fin grid2.N) (a : Fin 2), _)
theorem idx_w15 : ∀ (t : Fin cfg2.N) (a : Fin 2), win2_15.index t a = 0 := (by decide +kernel : ∀ (t : Fin grid2.N) (a : Fin 2), _)
theorem idx_w16 : ∀ (t : Fin cfg2.N) (a : Fin 2), win2_16.index t a = 0 := (by decide +kernel : ∀ (t : Fin grid2.N) (a : Fin 2), _)
theorem idx_w17 : ∀ (t : Fin cfg2.N) (a : Fin 2), win2_17.index t a = 0 := (by decide +kernel : ∀ (t : Fin grid2.N) (a : Fin 2), _)
theorem idx_w18 : ∀ (t : Fin cfg2.N) (a : Fin 2), win2_18.index t a = 0 := (by decide +kernel : ∀ (t : Fin grid2.N) (a : Fin 2), _)

/-- The rows of point t lie inside the 200000. -/
theorem rows_le (t : Fin cfg2.N) : 4000 * t.val + 4000 ≤ 200000 := by
  have hN : cfg2.N = 50 := N_2
  have := t.isLt
  omega

/-- The block of agg at point t is its rows 4000 t … 4000 t + 3999. -/
theorem blk_agg (c : Dev nD) (t : Fin cfg2.N) :
    (iblk2 (F := Ideal) V c 0 t : Vec Ideal S4000x64 .f32)
      = rowsOf 4000 (4000 * t.val) (rows_le t) (V c main_v14 : S200000x64.Idx → EReal) := by
  funext y
  unfold iblk2
  show (V c main_v14 : S200000x64.Idx → EReal) (((cfg2.win 0).blk t).view.emb y)
    = (V c main_v14 : S200000x64.Idx → EReal) (ix2 ⟨4000 * t.val + (y 0).val, _⟩ (y 1))
  congr 1
  funext a
  apply Fin.ext
  match a with
  | ⟨0, _⟩ => show win2_0.index t (0 : Fin 2) * 4000 + 1 * (y 0).val = 4000 * t.val + (y 0).val; rw [(idx_tall t).1]; omega
  | ⟨1, _⟩ => show win2_0.index t (1 : Fin 2) * 64 + 1 * (y 1).val = (y 1).val; rw [(idx_tall t).2.1]; omega

/-- The block of x at point t is the same rows of x. -/
theorem blk_x (c : Dev nD) (t : Fin cfg2.N) :
    (iblk2 (F := Ideal) V c 1 t : Vec Ideal S4000x128 .f32)
      = rowsOf 4000 (4000 * t.val) (rows_le t) (V c main_arg0 : S200000x128.Idx → EReal) := by
  funext y
  unfold iblk2
  show (V c main_arg0 : S200000x128.Idx → EReal) (((cfg2.win 1).blk t).view.emb y)
    = (V c main_arg0 : S200000x128.Idx → EReal) (ix2 ⟨4000 * t.val + (y 0).val, _⟩ (y 1))
  congr 1
  funext a
  apply Fin.ext
  match a with
  | ⟨0, _⟩ => show win2_1.index t (0 : Fin 2) * 4000 + 1 * (y 0).val = 4000 * t.val + (y 0).val; rw [(idx_tall t).2.2.1]; omega
  | ⟨1, _⟩ => show win2_1.index t (1 : Fin 2) * 128 + 1 * (y 1).val = (y 1).val; rw [(idx_tall t).2.2.2.1]; omega

/-- A weight's or a bias's block is the whole array: its block index is zero on both axes, so an entry of the block
    sits in the array at its own coordinates. -/
theorem blk_w2 (c : Dev nD) (t : Fin cfg2.N) :
    (iblk2 (F := Ideal) V c 2 t : Vec Ideal S128x128 .f32) = (V c main_arg11 : S128x128.Idx → EReal) := by
  funext y
  unfold iblk2
  show (V c main_arg11 : S128x128.Idx → EReal) (((cfg2.win 2).blk t).view.emb y) = V c main_arg11 y
  exact congrArg _ (funext fun a => Fin.ext (Pipeline.Window.rect_emb_val_of_index_zero win2_2 t a (idx_w2 t a) y))

theorem blk_w3 (c : Dev nD) (t : Fin cfg2.N) :
    (iblk2 (F := Ideal) V c 3 t : Vec Ideal S1x128 .f32) = (V c main_v1 : S1x128.Idx → EReal) := by
  funext y
  unfold iblk2
  show (V c main_v1 : S1x128.Idx → EReal) (((cfg2.win 3).blk t).view.emb y) = V c main_v1 y
  exact congrArg _ (funext fun a => Fin.ext (Pipeline.Window.rect_emb_val_of_index_zero win2_3 t a (idx_w3 t a) y))

theorem blk_w4 (c : Dev nD) (t : Fin cfg2.N) :
    (iblk2 (F := Ideal) V c 4 t : Vec Ideal S64x128 .f32) = (V c main_arg14 : S64x128.Idx → EReal) := by
  funext y
  unfold iblk2
  show (V c main_arg14 : S64x128.Idx → EReal) (((cfg2.win 4).blk t).view.emb y) = V c main_arg14 y
  exact congrArg _ (funext fun a => Fin.ext (Pipeline.Window.rect_emb_val_of_index_zero win2_4 t a (idx_w4 t a) y))

theorem blk_w5 (c : Dev nD) (t : Fin cfg2.N) :
    (iblk2 (F := Ideal) V c 5 t : Vec Ideal S128x128 .f32) = (V c main_arg15 : S128x128.Idx → EReal) := by
  funext y
  unfold iblk2
  show (V c main_arg15 : S128x128.Idx → EReal) (((cfg2.win 5).blk t).view.emb y) = V c main_arg15 y
  exact congrArg _ (funext fun a => Fin.ext (Pipeline.Window.rect_emb_val_of_index_zero win2_5 t a (idx_w5 t a) y))

theorem blk_w6 (c : Dev nD) (t : Fin cfg2.N) :
    (iblk2 (F := Ideal) V c 6 t : Vec Ideal S1x128 .f32) = (V c main_v2 : S1x128.Idx → EReal) := by
  funext y
  unfold iblk2
  show (V c main_v2 : S1x128.Idx → EReal) (((cfg2.win 6).blk t).view.emb y) = V c main_v2 y
  exact congrArg _ (funext fun a => Fin.ext (Pipeline.Window.rect_emb_val_of_index_zero win2_6 t a (idx_w6 t a) y))

theorem blk_w7 (c : Dev nD) (t : Fin cfg2.N) :
    (iblk2 (F := Ideal) V c 7 t : Vec Ideal S128x128 .f32) = (V c main_arg17 : S128x128.Idx → EReal) := by
  funext y
  unfold iblk2
  show (V c main_arg17 : S128x128.Idx → EReal) (((cfg2.win 7).blk t).view.emb y) = V c main_arg17 y
  exact congrArg _ (funext fun a => Fin.ext (Pipeline.Window.rect_emb_val_of_index_zero win2_7 t a (idx_w7 t a) y))

theorem blk_w8 (c : Dev nD) (t : Fin cfg2.N) :
    (iblk2 (F := Ideal) V c 8 t : Vec Ideal S1x128 .f32) = (V c main_v3 : S1x128.Idx → EReal) := by
  funext y
  unfold iblk2
  show (V c main_v3 : S1x128.Idx → EReal) (((cfg2.win 8).blk t).view.emb y) = V c main_v3 y
  exact congrArg _ (funext fun a => Fin.ext (Pipeline.Window.rect_emb_val_of_index_zero win2_8 t a (idx_w8 t a) y))

theorem blk_w9 (c : Dev nD) (t : Fin cfg2.N) :
    (iblk2 (F := Ideal) V c 9 t : Vec Ideal S128x128 .f32) = (V c main_arg19 : S128x128.Idx → EReal) := by
  funext y
  unfold iblk2
  show (V c main_arg19 : S128x128.Idx → EReal) (((cfg2.win 9).blk t).view.emb y) = V c main_arg19 y
  exact congrArg _ (funext fun a => Fin.ext (Pipeline.Window.rect_emb_val_of_index_zero win2_9 t a (idx_w9 t a) y))

theorem blk_w10 (c : Dev nD) (t : Fin cfg2.N) :
    (iblk2 (F := Ideal) V c 10 t : Vec Ideal S1x128 .f32) = (V c main_v4 : S1x128.Idx → EReal) := by
  funext y
  unfold iblk2
  show (V c main_v4 : S1x128.Idx → EReal) (((cfg2.win 10).blk t).view.emb y) = V c main_v4 y
  exact congrArg _ (funext fun a => Fin.ext (Pipeline.Window.rect_emb_val_of_index_zero win2_10 t a (idx_w10 t a) y))

theorem blk_w11 (c : Dev nD) (t : Fin cfg2.N) :
    (iblk2 (F := Ideal) V c 11 t : Vec Ideal S128x128 .f32) = (V c main_arg21 : S128x128.Idx → EReal) := by
  funext y
  unfold iblk2
  show (V c main_arg21 : S128x128.Idx → EReal) (((cfg2.win 11).blk t).view.emb y) = V c main_arg21 y
  exact congrArg _ (funext fun a => Fin.ext (Pipeline.Window.rect_emb_val_of_index_zero win2_11 t a (idx_w11 t a) y))

theorem blk_w12 (c : Dev nD) (t : Fin cfg2.N) :
    (iblk2 (F := Ideal) V c 12 t : Vec Ideal S1x128 .f32) = (V c main_v5 : S1x128.Idx → EReal) := by
  funext y
  unfold iblk2
  show (V c main_v5 : S1x128.Idx → EReal) (((cfg2.win 12).blk t).view.emb y) = V c main_v5 y
  exact congrArg _ (funext fun a => Fin.ext (Pipeline.Window.rect_emb_val_of_index_zero win2_12 t a (idx_w12 t a) y))

theorem blk_w13 (c : Dev nD) (t : Fin cfg2.N) :
    (iblk2 (F := Ideal) V c 13 t : Vec Ideal S128x128 .f32) = (V c main_arg23 : S128x128.Idx → EReal) := by
  funext y
  unfold iblk2
  show (V c main_arg23 : S128x128.Idx → EReal) (((cfg2.win 13).blk t).view.emb y) = V c main_arg23 y
  exact congrArg _ (funext fun a => Fin.ext (Pipeline.Window.rect_emb_val_of_index_zero win2_13 t a (idx_w13 t a) y))

theorem blk_w14 (c : Dev nD) (t : Fin cfg2.N) :
    (iblk2 (F := Ideal) V c 14 t : Vec Ideal S1x128 .f32) = (V c main_v6 : S1x128.Idx → EReal) := by
  funext y
  unfold iblk2
  show (V c main_v6 : S1x128.Idx → EReal) (((cfg2.win 14).blk t).view.emb y) = V c main_v6 y
  exact congrArg _ (funext fun a => Fin.ext (Pipeline.Window.rect_emb_val_of_index_zero win2_14 t a (idx_w14 t a) y))

theorem blk_w15 (c : Dev nD) (t : Fin cfg2.N) :
    (iblk2 (F := Ideal) V c 15 t : Vec Ideal S128x128 .f32) = (V c main_arg25 : S128x128.Idx → EReal) := by
  funext y
  unfold iblk2
  show (V c main_arg25 : S128x128.Idx → EReal) (((cfg2.win 15).blk t).view.emb y) = V c main_arg25 y
  exact congrArg _ (funext fun a => Fin.ext (Pipeline.Window.rect_emb_val_of_index_zero win2_15 t a (idx_w15 t a) y))

theorem blk_w16 (c : Dev nD) (t : Fin cfg2.N) :
    (iblk2 (F := Ideal) V c 16 t : Vec Ideal S1x128 .f32) = (V c main_v7 : S1x128.Idx → EReal) := by
  funext y
  unfold iblk2
  show (V c main_v7 : S1x128.Idx → EReal) (((cfg2.win 16).blk t).view.emb y) = V c main_v7 y
  exact congrArg _ (funext fun a => Fin.ext (Pipeline.Window.rect_emb_val_of_index_zero win2_16 t a (idx_w16 t a) y))

theorem blk_w17 (c : Dev nD) (t : Fin cfg2.N) :
    (iblk2 (F := Ideal) V c 17 t : Vec Ideal S128x128 .f32) = (V c main_arg27 : S128x128.Idx → EReal) := by
  funext y
  unfold iblk2
  show (V c main_arg27 : S128x128.Idx → EReal) (((cfg2.win 17).blk t).view.emb y) = V c main_arg27 y
  exact congrArg _ (funext fun a => Fin.ext (Pipeline.Window.rect_emb_val_of_index_zero win2_17 t a (idx_w17 t a) y))

theorem blk_w18 (c : Dev nD) (t : Fin cfg2.N) :
    (iblk2 (F := Ideal) V c 18 t : Vec Ideal S1x128 .f32) = (V c main_v8 : S1x128.Idx → EReal) := by
  funext y
  unfold iblk2
  show (V c main_v8 : S1x128.Idx → EReal) (((cfg2.win 18).blk t).view.emb y) = V c main_v8 y
  exact congrArg _ (funext fun a => Fin.ext (Pipeline.Window.rect_emb_val_of_index_zero win2_18 t a (idx_w18 t a) y))

/-! ## What a point writes back, and the array at the end -/

/-- The node stage of the whole arrays as the region finds them. -/
abbrev nodeOf (c : Dev nD) : FVec Ideal (Sh2 200000 128) .f32 :=
  nodeStage (V c main_v14) (V c main_arg0) (V c main_arg11) (rowVec (V c main_v1)) (V c main_arg14)
    (V c main_arg15) (rowVec (V c main_v2)) (V c main_arg17) (rowVec (V c main_v3))
    (V c main_arg19) (rowVec (V c main_v4))
    (V c main_arg21) (rowVec (V c main_v5)) (V c main_arg23) (rowVec (V c main_v6))
    (V c main_arg25) (rowVec (V c main_v7)) (V c main_arg27) (rowVec (V c main_v8))

/-- Point t writes back rows 4000 t … 4000 t + 3999 of the node stage of the whole arrays: the body's value is the
    node stage of the point's blocks, the tall blocks are those rows of agg and x, and the stage acts row by row. -/
theorem flushed_eq (c : Dev nD) (t : Fin cfg2.N) :
    (dat2 (F := Ideal) V c).flushed 19 t = ((cfg2.win 19).blk t).view.read (Elt Ideal) (nodeOf V c) := by
  show (cfg2.win 19).cut (grid2.coords t) ((dat2 (F := Ideal) V c).after 19 t) = _
  rw [after2_19, out_eq, blk_agg V c t, blk_x V c t, blk_w2 V c t, blk_w3 V c t, blk_w4 V c t, blk_w5 V c t, blk_w6 V c t,
    blk_w7 V c t, blk_w8 V c t, blk_w9 V c t, blk_w10 V c t, blk_w11 V c t, blk_w12 V c t, blk_w13 V c t, blk_w14 V c t,
    blk_w15 V c t, blk_w16 V c t, blk_w17 V c t, blk_w18 V c t, nodeStage_rows]
  funext y
  show nodeOf V c (ix2 ⟨4000 * t.val + (y 0).val, _⟩ (y 1)) = nodeOf V c (((cfg2.win 19).blk t).view.emb y)
  congr 1
  funext a
  apply Fin.ext
  match a with
  | ⟨0, _⟩ => show 4000 * t.val + (y 0).val = win2_19.index t (0 : Fin 2) * 4000 + 1 * (y 0).val; rw [(idx_tall t).2.2.2.2.1]; omega
  | ⟨1, _⟩ => show (y 1).val = win2_19.index t (1 : Fin 2) * 128 + 1 * (y 1).val; rw [(idx_tall t).2.2.2.2.2]; omega

/-- A row and column of the result lie in point t's block iff they lie in the block's ranges. -/
theorem mem_blk (t : Fin cfg2.N) (i : S200000x128.Idx) :
    i ∈ ((cfg2.win 19).blk t).view.set ↔ ∀ a : Fin 2, win2_19.index t a * S4000x128.size a ≤ (i a).val
      ∧ (i a).val < win2_19.index t a * S4000x128.size a + S4000x128.size a := by
  show i ∈ ((View.whole main_v15).slice (win2_19.rect t)).set ↔ _
  rw [View.set_slice_whole, Rect.mem_set_unit]
  exact Iff.rfl

/-- Row r of the result is written back by point r / 4000, and every point writes back. -/
theorem cover (i : S200000x128.Idx) :
    ∃ t : Fin cfg2.N, (cfg2.win 19).flush t = true ∧ i ∈ ((cfg2.win 19).blk t).view.set := by
  have hi0 : (i 0).val < 200000 := (i 0).isLt
  have hi1 : (i 1).val < 128 := (i 1).isLt
  have hN : cfg2.N = 50 := N_2
  obtain ⟨t, ht⟩ : ∃ t : Fin cfg2.N, t.val = (i 0).val / 4000 := ⟨⟨(i 0).val / 4000, by rw [hN]; omega⟩, rfl⟩
  refine ⟨t, flush2_19 t, ?_⟩
  rw [mem_blk]
  obtain ⟨-, -, -, -, e0, e1⟩ := idx_tall t
  intro a
  match a with
  | ⟨0, _⟩ =>
    show win2_19.index t (0 : Fin 2) * 4000 ≤ (i 0).val ∧ (i 0).val < win2_19.index t (0 : Fin 2) * 4000 + 4000
    rw [e0, ht]; omega
  | ⟨1, _⟩ =>
    show win2_19.index t (1 : Fin 2) * 128 ≤ (i 1).val ∧ (i 1).val < win2_19.index t (1 : Fin 2) * 128 + 128
    rw [e1]; omega

/-- THE RESULT ARRAY after the region: the node stage of the arrays the region was entered with. -/
theorem node_final (c : Dev nD) :
    (dat2 (F := Ideal) V c).arrAt 19 cfg2.N
      = (nodeStage (V c main_v14) (V c main_arg0) (V c main_arg11) (rowVec (V c main_v1)) (V c main_arg14)
          (V c main_arg15) (rowVec (V c main_v2)) (V c main_arg17) (rowVec (V c main_v3))
          (V c main_arg19) (rowVec (V c main_v4))
          (V c main_arg21) (rowVec (V c main_v5)) (V c main_arg23) (rowVec (V c main_v6))
          (V c main_arg25) (rowVec (V c main_v7)) (V c main_arg27) (rowVec (V c main_v8)) : FVec Ideal (Sh2 200000 128) .f32) :=
  (dat2 (F := Ideal) V c).arrAt_eq_of_cover 19 (nodeOf V c) (fun t _ => flushed_eq V c t) cover

end Blocks

end Cert.KernelIdeal.NodeBlock

end
-- ==== Proof.KernelValue.lean ====
/-
  The kernel's program at the ideal instance, end to end: the first pallas_call leaves the edge stage of the arguments,
  the host gathers its rows by idx_kj, the second call multiplies them by the triplet embedding, the host sums the
  products per target edge by idx_ji, and the third call applies the node stage.  Each call's output array is the stage
  function of the arrays the call finds; the arrays it finds are the arguments as launched (nothing before it has
  written them), the nine biases reshaped, or what the previous steps left.
-/
import proofs.«405097_j85779086836105_3_alg».proof.Proof.KernelRun
import proofs.«405097_j85779086836105_3_alg».proof.Proof.HostSteps
import proofs.«405097_j85779086836105_3_alg».proof.Proof.Stages
import proofs.«405097_j85779086836105_3_alg».proof.Proof.EdgeBlock
import proofs.«405097_j85779086836105_3_alg».proof.Proof.TripBlock
import proofs.«405097_j85779086836105_3_alg».proof.Proof.NodeBlock

set_option maxRecDepth 16384

noncomputable section

namespace Cert.KernelIdeal.KernelValue

open Cert.KernelIdeal Cert.KernelIdeal.Gen Cert.KernelIdeal.HostSteps Cert.RowMath Cert.Stages
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- Argument 0 as launched, as a matrix. -/
abbrev A0 (c : Dev nD) : FVec Ideal (Sh2 200000 128) .f32 := m ((c : Thread nD τ).loc main_arg0)
/-- Argument 1 as launched, as a matrix. -/
abbrev A1 (c : Dev nD) : FVec Ideal (Sh2 200000 6) .f32 := m ((c : Thread nD τ).loc main_arg1)
/-- Argument 2 as launched, as a matrix. -/
abbrev A2 (c : Dev nD) : FVec Ideal (Sh2 2000000 42) .f32 := m ((c : Thread nD τ).loc main_arg2)
/-- Argument 5 as launched, as a matrix. -/
abbrev A5 (c : Dev nD) : FVec Ideal (Sh2 6 8) .f32 := m ((c : Thread nD τ).loc main_arg5)
/-- Argument 6 as launched, as a matrix. -/
abbrev A6 (c : Dev nD) : FVec Ideal (Sh2 8 128) .f32 := m ((c : Thread nD τ).loc main_arg6)
/-- Argument 7 as launched, as a matrix. -/
abbrev A7 (c : Dev nD) : FVec Ideal (Sh2 42 8) .f32 := m ((c : Thread nD τ).loc main_arg7)
/-- Argument 8 as launched, as a matrix. -/
abbrev A8 (c : Dev nD) : FVec Ideal (Sh2 8 64) .f32 := m ((c : Thread nD τ).loc main_arg8)
/-- Argument 9 as launched, as a matrix. -/
abbrev A9 (c : Dev nD) : FVec Ideal (Sh2 128 128) .f32 := m ((c : Thread nD τ).loc main_arg9)
/-- Argument 11 as launched, as a matrix. -/
abbrev A11 (c : Dev nD) : FVec Ideal (Sh2 128 128) .f32 := m ((c : Thread nD τ).loc main_arg11)
/-- Argument 13 as launched, as a matrix. -/
abbrev A13 (c : Dev nD) : FVec Ideal (Sh2 128 64) .f32 := m ((c : Thread nD τ).loc main_arg13)
/-- Argument 14 as launched, as a matrix. -/
abbrev A14 (c : Dev nD) : FVec Ideal (Sh2 64 128) .f32 := m ((c : Thread nD τ).loc main_arg14)
/-- Argument 15 as launched, as a matrix. -/
abbrev A15 (c : Dev nD) : FVec Ideal (Sh2 128 128) .f32 := m ((c : Thread nD τ).loc main_arg15)
/-- Argument 17 as launched, as a matrix. -/
abbrev A17 (c : Dev nD) : FVec Ideal (Sh2 128 128) .f32 := m ((c : Thread nD τ).loc main_arg17)
/-- Argument 19 as launched, as a matrix. -/
abbrev A19 (c : Dev nD) : FVec Ideal (Sh2 128 128) .f32 := m ((c : Thread nD τ).loc main_arg19)
/-- Argument 21 as launched, as a matrix. -/
abbrev A21 (c : Dev nD) : FVec Ideal (Sh2 128 128) .f32 := m ((c : Thread nD τ).loc main_arg21)
/-- Argument 23 as launched, as a matrix. -/
abbrev A23 (c : Dev nD) : FVec Ideal (Sh2 128 128) .f32 := m ((c : Thread nD τ).loc main_arg23)
/-- Argument 25 as launched, as a matrix. -/
abbrev A25 (c : Dev nD) : FVec Ideal (Sh2 128 128) .f32 := m ((c : Thread nD τ).loc main_arg25)
/-- Argument 27 as launched, as a matrix. -/
abbrev A27 (c : Dev nD) : FVec Ideal (Sh2 128 128) .f32 := m ((c : Thread nD τ).loc main_arg27)
/-- Argument 10 (a bias) as launched, as a vector. -/
abbrev A10 (c : Dev nD) : FVec Ideal (Sh1 128) .f32 := m ((c : Thread nD τ).loc main_arg10)
/-- Argument 12 (a bias) as launched, as a vector. -/
abbrev A12 (c : Dev nD) : FVec Ideal (Sh1 128) .f32 := m ((c : Thread nD τ).loc main_arg12)
/-- Argument 16 (a bias) as launched, as a vector. -/
abbrev A16 (c : Dev nD) : FVec Ideal (Sh1 128) .f32 := m ((c : Thread nD τ).loc main_arg16)
/-- Argument 18 (a bias) as launched, as a vector. -/
abbrev A18 (c : Dev nD) : FVec Ideal (Sh1 128) .f32 := m ((c : Thread nD τ).loc main_arg18)
/-- Argument 20 (a bias) as launched, as a vector. -/
abbrev A20 (c : Dev nD) : FVec Ideal (Sh1 128) .f32 := m ((c : Thread nD τ).loc main_arg20)
/-- Argument 22 (a bias) as launched, as a vector. -/
abbrev A22 (c : Dev nD) : FVec Ideal (Sh1 128) .f32 := m ((c : Thread nD τ).loc main_arg22)
/-- Argument 24 (a bias) as launched, as a vector. -/
abbrev A24 (c : Dev nD) : FVec Ideal (Sh1 128) .f32 := m ((c : Thread nD τ).loc main_arg24)
/-- Argument 26 (a bias) as launched, as a vector. -/
abbrev A26 (c : Dev nD) : FVec Ideal (Sh1 128) .f32 := m ((c : Thread nD τ).loc main_arg26)
/-- Argument 28 (a bias) as launched, as a vector. -/
abbrev A28 (c : Dev nD) : FVec Ideal (Sh1 128) .f32 := m ((c : Thread nD τ).loc main_arg28)
/-- idx_kj as launched. -/
abbrev I3 (c : Dev nD) : IVec S2000000 32 := m ((c : Thread nD τ).loc main_arg3)
/-- idx_ji as launched. -/
abbrev I4 (c : Dev nD) : IVec S2000000 32 := m ((c : Thread nD τ).loc main_arg4)

/-! ## A buffer nothing has written yet holds its launch contents -/

/-- At the first call's entry. -/
theorem at1 (c : Dev nD) (b : Ref sig .tc)
    (h0 : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    W1 m ρ c (Proc.devRef .tc b) = m ((c : Thread nD τ).loc b) := host0_keeps m ρ c b h0
/-- At the first call's exit. -/
theorem at2 (c : Dev nD) (b : Ref sig .tc)
    (h0 : b ≠ main_v0 ∧ b ≠ main_v1 ∧ b ≠ main_v2 ∧ b ≠ main_v3 ∧ b ≠ main_v4 ∧ b ≠ main_v5 ∧ b ≠ main_v6 ∧ b ≠ main_v7 ∧ b ≠ main_v8)
    (h1 : b ≠ main_v9) : W2 m ρ c (Proc.devRef .tc b) = m ((c : Thread nD τ).loc b) :=
  (call0_keeps m ρ c b h1).trans (at1 m ρ c b h0)
/-- At the second call's entry. -/
theorem at3 (c : Dev nD) (b : Ref sig .tc)
    (h0 : b ≠ main_v0 ∧ b ≠ main_v1 ∧ b ≠ main_v2 ∧ b ≠ main_v3 ∧ b ≠ main_v4 ∧ b ≠ main_v5 ∧ b ≠ main_v6 ∧ b ≠ main_v7 ∧ b ≠ main_v8)
    (h1 : b ≠ main_v9) (h2 : b ≠ main_call0_v0 ∧ b ≠ main_v10) : W3 m ρ c (Proc.devRef .tc b) = m ((c : Thread nD τ).loc b) :=
  (host1_keeps m ρ c b h2).trans (at2 m ρ c b h0 h1)
/-- At the second call's exit. -/
theorem at4 (c : Dev nD) (b : Ref sig .tc)
    (h0 : b ≠ main_v0 ∧ b ≠ main_v1 ∧ b ≠ main_v2 ∧ b ≠ main_v3 ∧ b ≠ main_v4 ∧ b ≠ main_v5 ∧ b ≠ main_v6 ∧ b ≠ main_v7 ∧ b ≠ main_v8)
    (h1 : b ≠ main_v9) (h2 : b ≠ main_call0_v0 ∧ b ≠ main_v10) (h3 : b ≠ main_v11) :
    W4 m ρ c (Proc.devRef .tc b) = m ((c : Thread nD τ).loc b) :=
  (call1_keeps m ρ c b h3).trans (at3 m ρ c b h0 h1 h2)
/-- At the third call's entry. -/
theorem at5 (c : Dev nD) (b : Ref sig .tc)
    (h0 : b ≠ main_v0 ∧ b ≠ main_v1 ∧ b ≠ main_v2 ∧ b ≠ main_v3 ∧ b ≠ main_v4 ∧ b ≠ main_v5 ∧ b ≠ main_v6 ∧ b ≠ main_v7 ∧ b ≠ main_v8)
    (h1 : b ≠ main_v9) (h2 : b ≠ main_call0_v0 ∧ b ≠ main_v10) (h3 : b ≠ main_v11)
    (h4 : b ≠ main_cst ∧ b ≠ main_v12 ∧ b ≠ main_v13 ∧ b ≠ main_v14) :
    W5 m ρ c (Proc.devRef .tc b) = m ((c : Thread nD τ).loc b) :=
  (host2_keeps m ρ c b h4).trans (at4 m ρ c b h0 h1 h2 h3)

/-- A reshaped bias, written before the first call, is still there at the third call's entry. -/
theorem bias_at5 (c : Dev nD) (b : Ref sig .tc) (h1 : b ≠ main_v9) (h2 : b ≠ main_call0_v0 ∧ b ≠ main_v10) (h3 : b ≠ main_v11)
    (h4 : b ≠ main_cst ∧ b ≠ main_v12 ∧ b ≠ main_v13 ∧ b ≠ main_v14) :
    W5 m ρ c (Proc.devRef .tc b) = W1 m ρ c (Proc.devRef .tc b) :=
  (host2_keeps m ρ c b h4).trans ((call1_keeps m ρ c b h3).trans ((host1_keeps m ρ c b h2).trans (call0_keeps m ρ c b h1)))

/-! ## The three calls in turn -/

/-- What the first call leaves: the edge stage of the arguments. -/
def kEdge (c : Dev nD) : FVec Ideal (Sh2 200000 64) .f32 :=
  edgeStage (A0 m c) (A1 m c) (A9 m c) (vecFn (A10 m c)) (A5 m c) (A6 m c) (A13 m c)

theorem edge_at (c : Dev nD) : W2 m ρ c (Proc.devRef .tc main_v9) = kEdge m c := by
  refine (W2_arr m ρ c 7).trans ?_
  rw [Cert.KernelIdeal.EdgeBlock.edge_final (V1 m ρ) c]
  unfold kEdge
  have e0 := at1 m ρ c main_arg0 (by decide : main_arg0 ≠ main_v0 ∧ main_arg0 ≠ main_v1 ∧ main_arg0 ≠ main_v2 ∧ main_arg0 ≠ main_v3 ∧ main_arg0 ≠ main_v4 ∧ main_arg0 ≠ main_v5 ∧ main_arg0 ≠ main_v6 ∧ main_arg0 ≠ main_v7 ∧ main_arg0 ≠ main_v8)
  have e1 := at1 m ρ c main_arg1 (by decide : main_arg1 ≠ main_v0 ∧ main_arg1 ≠ main_v1 ∧ main_arg1 ≠ main_v2 ∧ main_arg1 ≠ main_v3 ∧ main_arg1 ≠ main_v4 ∧ main_arg1 ≠ main_v5 ∧ main_arg1 ≠ main_v6 ∧ main_arg1 ≠ main_v7 ∧ main_arg1 ≠ main_v8)
  have e9 := at1 m ρ c main_arg9 (by decide : main_arg9 ≠ main_v0 ∧ main_arg9 ≠ main_v1 ∧ main_arg9 ≠ main_v2 ∧ main_arg9 ≠ main_v3 ∧ main_arg9 ≠ main_v4 ∧ main_arg9 ≠ main_v5 ∧ main_arg9 ≠ main_v6 ∧ main_arg9 ≠ main_v7 ∧ main_arg9 ≠ main_v8)
  have e5 := at1 m ρ c main_arg5 (by decide : main_arg5 ≠ main_v0 ∧ main_arg5 ≠ main_v1 ∧ main_arg5 ≠ main_v2 ∧ main_arg5 ≠ main_v3 ∧ main_arg5 ≠ main_v4 ∧ main_arg5 ≠ main_v5 ∧ main_arg5 ≠ main_v6 ∧ main_arg5 ≠ main_v7 ∧ main_arg5 ≠ main_v8)
  have e6 := at1 m ρ c main_arg6 (by decide : main_arg6 ≠ main_v0 ∧ main_arg6 ≠ main_v1 ∧ main_arg6 ≠ main_v2 ∧ main_arg6 ≠ main_v3 ∧ main_arg6 ≠ main_v4 ∧ main_arg6 ≠ main_v5 ∧ main_arg6 ≠ main_v6 ∧ main_arg6 ≠ main_v7 ∧ main_arg6 ≠ main_v8)
  have e13 := at1 m ρ c main_arg13 (by decide : main_arg13 ≠ main_v0 ∧ main_arg13 ≠ main_v1 ∧ main_arg13 ≠ main_v2 ∧ main_arg13 ≠ main_v3 ∧ main_arg13 ≠ main_v4 ∧ main_arg13 ≠ main_v5 ∧ main_arg13 ≠ main_v6 ∧ main_arg13 ≠ main_v7 ∧ main_arg13 ≠ main_v8)
  have eb : rowVec (V1 m ρ c main_v0) = vecFn (A10 m c) := by
    show rowVec (W1 m ρ c (Proc.devRef .tc main_v0)) = _
    rw [bias0_eq]
    exact rowVec_reshape _ _
  show edgeStage (W1 m ρ c (Proc.devRef .tc main_arg0)) (W1 m ρ c (Proc.devRef .tc main_arg1)) (W1 m ρ c (Proc.devRef .tc main_arg9)) (rowVec (V1 m ρ c main_v0)) (W1 m ρ c (Proc.devRef .tc main_arg5)) (W1 m ρ c (Proc.devRef .tc main_arg6)) (W1 m ρ c (Proc.devRef .tc main_arg13)) = _
  rw [e0, e1, e9, e5, e6, e13, eb]

/-- What the second call leaves: the triplet embedding times the gathered rows of the first call's output. -/
def kMsg (c : Dev nD) : FVec Ideal (Sh2 2000000 64) .f32 :=
  mulf (tripEmb (A2 m c) (A7 m c) (A8 m c))
    (Host.gather gather_S200000x64_S2000000x1_S2000000x64_1_0_n_n_0_1_164 (kEdge m c)
      (broadcastInDim S2000000x1 ![0] bcast_S2000000_S2000000x1_0 (I3 m c)))

theorem msg_at (c : Dev nD) : W4 m ρ c (Proc.devRef .tc main_v11) = kMsg m c := by
  refine (W4_arr m ρ c 4).trans ?_
  rw [Cert.KernelIdeal.TripBlock.trip_final (V3 m ρ) c]
  unfold kMsg
  have e2 := at3 m ρ c main_arg2 (by decide : main_arg2 ≠ main_v0 ∧ main_arg2 ≠ main_v1 ∧ main_arg2 ≠ main_v2 ∧ main_arg2 ≠ main_v3 ∧ main_arg2 ≠ main_v4 ∧ main_arg2 ≠ main_v5 ∧ main_arg2 ≠ main_v6 ∧ main_arg2 ≠ main_v7 ∧ main_arg2 ≠ main_v8) (by decide) (by decide)
  have e7 := at3 m ρ c main_arg7 (by decide : main_arg7 ≠ main_v0 ∧ main_arg7 ≠ main_v1 ∧ main_arg7 ≠ main_v2 ∧ main_arg7 ≠ main_v3 ∧ main_arg7 ≠ main_v4 ∧ main_arg7 ≠ main_v5 ∧ main_arg7 ≠ main_v6 ∧ main_arg7 ≠ main_v7 ∧ main_arg7 ≠ main_v8) (by decide) (by decide)
  have e8 := at3 m ρ c main_arg8 (by decide : main_arg8 ≠ main_v0 ∧ main_arg8 ≠ main_v1 ∧ main_arg8 ≠ main_v2 ∧ main_arg8 ≠ main_v3 ∧ main_arg8 ≠ main_v4 ∧ main_arg8 ≠ main_v5 ∧ main_arg8 ≠ main_v6 ∧ main_arg8 ≠ main_v7 ∧ main_arg8 ≠ main_v8) (by decide) (by decide)
  have e3 := at2 m ρ c main_arg3 (by decide : main_arg3 ≠ main_v0 ∧ main_arg3 ≠ main_v1 ∧ main_arg3 ≠ main_v2 ∧ main_arg3 ≠ main_v3 ∧ main_arg3 ≠ main_v4 ∧ main_arg3 ≠ main_v5 ∧ main_arg3 ≠ main_v6 ∧ main_arg3 ≠ main_v7 ∧ main_arg3 ≠ main_v8) (by decide)
  have eg : (V3 m ρ c main_v10 : FVec Ideal (Sh2 2000000 64) .f32)
      = Host.gather gather_S200000x64_S2000000x1_S2000000x64_1_0_n_n_0_1_164 (kEdge m c)
          (broadcastInDim S2000000x1 ![0] bcast_S2000000_S2000000x1_0 (I3 m c)) := by
    show W3 m ρ c (Proc.devRef .tc main_v10) = _
    rw [gathered_eq, edge_at, e3]
  show mulf (tripEmb (W3 m ρ c (Proc.devRef .tc main_arg2)) (W3 m ρ c (Proc.devRef .tc main_arg7)) (W3 m ρ c (Proc.devRef .tc main_arg8))) (V3 m ρ c main_v10 : FVec Ideal (Sh2 2000000 64) .f32) = _
  rw [e2, e7, e8, eg]

/-- The messages summed per target edge. -/
def kAgg (c : Dev nD) : FVec Ideal (Sh2 200000 64) .f32 :=
  Host.scatterAdd scatter_S200000x64_S2000000x1_S2000000x64_1_0_0_1
    (broadcastInDim S200000x64 ![] bcast_S_S200000x64 (constant S_ .f32 0x00000000#32))
    (broadcastInDim S2000000x1 ![0] bcast_S2000000_S2000000x1_0 (I4 m c))
    (kMsg m c)

theorem agg_at (c : Dev nD) : W5 m ρ c (Proc.devRef .tc main_v14) = kAgg m c := by
  have e4 := at4 m ρ c main_arg4 (by decide : main_arg4 ≠ main_v0 ∧ main_arg4 ≠ main_v1 ∧ main_arg4 ≠ main_v2 ∧ main_arg4 ≠ main_v3 ∧ main_arg4 ≠ main_v4 ∧ main_arg4 ≠ main_v5 ∧ main_arg4 ≠ main_v6 ∧ main_arg4 ≠ main_v7 ∧ main_arg4 ≠ main_v8) (by decide) (by decide) (by decide)
  rw [summed_eq, msg_at, e4]
  rfl

/-- What the kernel's program returns: the node stage of the summed messages and the arguments. -/
def kOut (c : Dev nD) : FVec Ideal (Sh2 200000 128) .f32 :=
  nodeStage (kAgg m c) (A0 m c) (A11 m c) (vecFn (A12 m c)) (A14 m c)
    (A15 m c) (vecFn (A16 m c)) (A17 m c) (vecFn (A18 m c))
    (A19 m c) (vecFn (A20 m c))
    (A21 m c) (vecFn (A22 m c)) (A23 m c) (vecFn (A24 m c))
    (A25 m c) (vecFn (A26 m c)) (A27 m c) (vecFn (A28 m c))

theorem out_at (c : Dev nD) : W6 m ρ c (Proc.devRef .tc main_v15) = kOut m c := by
  refine (W6_arr m ρ c 19).trans ?_
  rw [Cert.KernelIdeal.NodeBlock.node_final (V5 m ρ) c]
  unfold kOut
  have e0 := at5 m ρ c main_arg0 (by decide : main_arg0 ≠ main_v0 ∧ main_arg0 ≠ main_v1 ∧ main_arg0 ≠ main_v2 ∧ main_arg0 ≠ main_v3 ∧ main_arg0 ≠ main_v4 ∧ main_arg0 ≠ main_v5 ∧ main_arg0 ≠ main_v6 ∧ main_arg0 ≠ main_v7 ∧ main_arg0 ≠ main_v8) (by decide) (by decide) (by decide) (by decide)
  have e11 := at5 m ρ c main_arg11 (by decide : main_arg11 ≠ main_v0 ∧ main_arg11 ≠ main_v1 ∧ main_arg11 ≠ main_v2 ∧ main_arg11 ≠ main_v3 ∧ main_arg11 ≠ main_v4 ∧ main_arg11 ≠ main_v5 ∧ main_arg11 ≠ main_v6 ∧ main_arg11 ≠ main_v7 ∧ main_arg11 ≠ main_v8) (by decide) (by decide) (by decide) (by decide)
  have e14 := at5 m ρ c main_arg14 (by decide : main_arg14 ≠ main_v0 ∧ main_arg14 ≠ main_v1 ∧ main_arg14 ≠ main_v2 ∧ main_arg14 ≠ main_v3 ∧ main_arg14 ≠ main_v4 ∧ main_arg14 ≠ main_v5 ∧ main_arg14 ≠ main_v6 ∧ main_arg14 ≠ main_v7 ∧ main_arg14 ≠ main_v8) (by decide) (by decide) (by decide) (by decide)
  have e15 := at5 m ρ c main_arg15 (by decide : main_arg15 ≠ main_v0 ∧ main_arg15 ≠ main_v1 ∧ main_arg15 ≠ main_v2 ∧ main_arg15 ≠ main_v3 ∧ main_arg15 ≠ main_v4 ∧ main_arg15 ≠ main_v5 ∧ main_arg15 ≠ main_v6 ∧ main_arg15 ≠ main_v7 ∧ main_arg15 ≠ main_v8) (by decide) (by decide) (by decide) (by decide)
  have e17 := at5 m ρ c main_arg17 (by decide : main_arg17 ≠ main_v0 ∧ main_arg17 ≠ main_v1 ∧ main_arg17 ≠ main_v2 ∧ main_arg17 ≠ main_v3 ∧ main_arg17 ≠ main_v4 ∧ main_arg17 ≠ main_v5 ∧ main_arg17 ≠ main_v6 ∧ main_arg17 ≠ main_v7 ∧ main_arg17 ≠ main_v8) (by decide) (by decide) (by decide) (by decide)
  have e19 := at5 m ρ c main_arg19 (by decide : main_arg19 ≠ main_v0 ∧ main_arg19 ≠ main_v1 ∧ main_arg19 ≠ main_v2 ∧ main_arg19 ≠ main_v3 ∧ main_arg19 ≠ main_v4 ∧ main_arg19 ≠ main_v5 ∧ main_arg19 ≠ main_v6 ∧ main_arg19 ≠ main_v7 ∧ main_arg19 ≠ main_v8) (by decide) (by decide) (by decide) (by decide)
  have e21 := at5 m ρ c main_arg21 (by decide : main_arg21 ≠ main_v0 ∧ main_arg21 ≠ main_v1 ∧ main_arg21 ≠ main_v2 ∧ main_arg21 ≠ main_v3 ∧ main_arg21 ≠ main_v4 ∧ main_arg21 ≠ main_v5 ∧ main_arg21 ≠ main_v6 ∧ main_arg21 ≠ main_v7 ∧ main_arg21 ≠ main_v8) (by decide) (by decide) (by decide) (by decide)
  have e23 := at5 m ρ c main_arg23 (by decide : main_arg23 ≠ main_v0 ∧ main_arg23 ≠ main_v1 ∧ main_arg23 ≠ main_v2 ∧ main_arg23 ≠ main_v3 ∧ main_arg23 ≠ main_v4 ∧ main_arg23 ≠ main_v5 ∧ main_arg23 ≠ main_v6 ∧ main_arg23 ≠ main_v7 ∧ main_arg23 ≠ main_v8) (by decide) (by decide) (by decide) (by decide)
  have e25 := at5 m ρ c main_arg25 (by decide : main_arg25 ≠ main_v0 ∧ main_arg25 ≠ main_v1 ∧ main_arg25 ≠ main_v2 ∧ main_arg25 ≠ main_v3 ∧ main_arg25 ≠ main_v4 ∧ main_arg25 ≠ main_v5 ∧ main_arg25 ≠ main_v6 ∧ main_arg25 ≠ main_v7 ∧ main_arg25 ≠ main_v8) (by decide) (by decide) (by decide) (by decide)
  have e27 := at5 m ρ c main_arg27 (by decide : main_arg27 ≠ main_v0 ∧ main_arg27 ≠ main_v1 ∧ main_arg27 ≠ main_v2 ∧ main_arg27 ≠ main_v3 ∧ main_arg27 ≠ main_v4 ∧ main_arg27 ≠ main_v5 ∧ main_arg27 ≠ main_v6 ∧ main_arg27 ≠ main_v7 ∧ main_arg27 ≠ main_v8) (by decide) (by decide) (by decide) (by decide)
  have b1 : rowVec (V5 m ρ c main_v1) = vecFn (A12 m c) := by
    show rowVec (W5 m ρ c (Proc.devRef .tc main_v1)) = _
    rw [bias_at5 m ρ c main_v1 (by decide) (by decide) (by decide) (by decide), bias1_eq]
    exact rowVec_reshape _ _
  have b2 : rowVec (V5 m ρ c main_v2) = vecFn (A16 m c) := by
    show rowVec (W5 m ρ c (Proc.devRef .tc main_v2)) = _
    rw [bias_at5 m ρ c main_v2 (by decide) (by decide) (by decide) (by decide), bias2_eq]
    exact rowVec_reshape _ _
  have b3 : rowVec (V5 m ρ c main_v3) = vecFn (A18 m c) := by
    show rowVec (W5 m ρ c (Proc.devRef .tc main_v3)) = _
    rw [bias_at5 m ρ c main_v3 (by decide) (by decide) (by decide) (by decide), bias3_eq]
    exact rowVec_reshape _ _
  have b4 : rowVec (V5 m ρ c main_v4) = vecFn (A20 m c) := by
    show rowVec (W5 m ρ c (Proc.devRef .tc main_v4)) = _
    rw [bias_at5 m ρ c main_v4 (by decide) (by decide) (by decide) (by decide), bias4_eq]
    exact rowVec_reshape _ _
  have b5 : rowVec (V5 m ρ c main_v5) = vecFn (A22 m c) := by
    show rowVec (W5 m ρ c (Proc.devRef .tc main_v5)) = _
    rw [bias_at5 m ρ c main_v5 (by decide) (by decide) (by decide) (by decide), bias5_eq]
    exact rowVec_reshape _ _
  have b6 : rowVec (V5 m ρ c main_v6) = vecFn (A24 m c) := by
    show rowVec (W5 m ρ c (Proc.devRef .tc main_v6)) = _
    rw [bias_at5 m ρ c main_v6 (by decide) (by decide) (by decide) (by decide), bias6_eq]
    exact rowVec_reshape _ _
  have b7 : rowVec (V5 m ρ c main_v7) = vecFn (A26 m c) := by
    show rowVec (W5 m ρ c (Proc.devRef .tc main_v7)) = _
    rw [bias_at5 m ρ c main_v7 (by decide) (by decide) (by decide) (by decide), bias7_eq]
    exact rowVec_reshape _ _
  have b8 : rowVec (V5 m ρ c main_v8) = vecFn (A28 m c) := by
    show rowVec (W5 m ρ c (Proc.devRef .tc main_v8)) = _
    rw [bias_at5 m ρ c main_v8 (by decide) (by decide) (by decide) (by decide), bias8_eq]
    exact rowVec_reshape _ _
  show nodeStage (W5 m ρ c (Proc.devRef .tc main_v14)) (W5 m ρ c (Proc.devRef .tc main_arg0)) (W5 m ρ c (Proc.devRef .tc main_arg11)) (rowVec (V5 m ρ c main_v1)) (W5 m ρ c (Proc.devRef .tc main_arg14))
    (W5 m ρ c (Proc.devRef .tc main_arg15)) (rowVec (V5 m ρ c main_v2)) (W5 m ρ c (Proc.devRef .tc main_arg17)) (rowVec (V5 m ρ c main_v3))
    (W5 m ρ c (Proc.devRef .tc main_arg19)) (rowVec (V5 m ρ c main_v4))
    (W5 m ρ c (Proc.devRef .tc main_arg21)) (rowVec (V5 m ρ c main_v5)) (W5 m ρ c (Proc.devRef .tc main_arg23)) (rowVec (V5 m ρ c main_v6))
    (W5 m ρ c (Proc.devRef .tc main_arg25)) (rowVec (V5 m ρ c main_v7)) (W5 m ρ c (Proc.devRef .tc main_arg27)) (rowVec (V5 m ρ c main_v8)) = _
  rw [agg_at, e0, e11, e14, e15, e17, e19, e21, e23, e25, e27, b1, b2, b3, b4, b5, b6, b7, b8]

/-- The kernel's run at the ideal instance, its result named. -/
theorem run : θ_run (defs (F := Ideal)) (onTc (τ := τ) (main (F := Ideal))) ⟨m, fun _ => 0, ρ⟩ (fun r => ∀ c : Dev nD,
      r.2.mem ((c.tc : Thread nD τ).loc main_v15) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run _ _ _).mono (fun r h c => ⟨(h c).1.trans (out_at m ρ c), (h c).2⟩) (Cert.KernelIdeal.RunValue.run_result (F := Ideal) m ρ)

end Cert.KernelIdeal.KernelValue

end
-- ==== Proof.RefSide.lean ====
/-
  The reference as a composition of the three row-wise stages.

  On whole arrays the reference computes: the edge stage on all 200000 edges; the triplet embedding on all 2000000
  triplets; for every triplet the edge stage's row of the edge the triplet reads from (a gather), times the triplet's
  embedding; the sum of these products over the triplets that point at each edge (a scatter-add into 200000 rows of
  zeros); and the node stage on the summed rows.  It spells each dense layer  x · W + (b broadcast down the rows)  and
  each swish  v · (1 / (1 + exp(−v))).  Below, the reference's result is rewritten, one named intermediate at a time,
  into   nodeStage (scatter-add (gather (edgeStage …) ⊙ tripEmb …)) … :  every matrix product becomes the sum mm, every
  bias addCols, every spelt-out swish swishV, and what remains is the definition of the stages.
-/
import proofs.«405097_j85779086836105_3_alg».proof.Proof.Gen.ReferenceIdeal.Run
import proofs.«405097_j85779086836105_3_alg».proof.Proof.Stages

noncomputable section

open Cert.ReferenceIdeal Cert.ReferenceIdeal.Gen Cert.ReferenceIdeal.Value Cert.RowMath Cert.Stages
open Idealize.ShloMosaic Idealize.ShloMosaic.ValueIdx Idealize.ShloMosaic.StableHlo

namespace Cert.ReferenceIdeal.RefSide

/-! ## The dimension numbers of the reference's products are the plain rows-by-columns ones -/

theorem dE_128_128 : dot_S200000x128_S128x128_S200000x128_1_0_0_1_n_n = DotDims.plain 200000 128 128 := rfl
theorem dE_6_8 : dot_S200000x6_S6x8_S200000x8_1_0_0_1_n_n = DotDims.plain 200000 6 8 := rfl
theorem dE_8_128 : dot_S200000x8_S8x128_S200000x128_1_0_0_1_n_n = DotDims.plain 200000 8 128 := rfl
theorem dE_128_64 : dot_S200000x128_S128x64_S200000x64_1_0_0_1_n_n = DotDims.plain 200000 128 64 := rfl
theorem dT_42_8 : dot_S2000000x42_S42x8_S2000000x8_1_0_0_1_n_n = DotDims.plain 2000000 42 8 := rfl
theorem dT_8_64 : dot_S2000000x8_S8x64_S2000000x64_1_0_0_1_n_n = DotDims.plain 2000000 8 64 := rfl
theorem dE_64_128 : dot_S200000x64_S64x128_S200000x128_1_0_0_1_n_n = DotDims.plain 200000 64 128 := rfl

/-! ## The arguments, at their shapes -/

variable (V0 : Valuation τ sig (Elt Ideal))

/-- Argument 0: the edge features x, one row of 128 numbers per edge. -/
abbrev a0 : FVec Ideal (Sh2 200000 128) .f32 := V0 (Proc.devRef .tc main_arg0)
/-- Argument 1: the radial basis rbf, 6 numbers per edge. -/
abbrev a1 : FVec Ideal (Sh2 200000 6) .f32 := V0 (Proc.devRef .tc main_arg1)
/-- Argument 2: the spherical basis sbf, 42 numbers per triplet. -/
abbrev a2 : FVec Ideal (Sh2 2000000 42) .f32 := V0 (Proc.devRef .tc main_arg2)
/-- Argument 3: per triplet, the edge its message is read from (a negative index counts from the end). -/
abbrev a3 : IVec (Sh1 2000000) 32 := V0 (Proc.devRef .tc main_arg3)
/-- Argument 4: per triplet, the edge its message is added to. -/
abbrev a4 : IVec (Sh1 2000000) 32 := V0 (Proc.devRef .tc main_arg4)
/-- Argument 5: the first radial weight (6 × 8). -/
abbrev a5 : FVec Ideal (Sh2 6 8) .f32 := V0 (Proc.devRef .tc main_arg5)
/-- Argument 6: the second radial weight (8 × 128). -/
abbrev a6 : FVec Ideal (Sh2 8 128) .f32 := V0 (Proc.devRef .tc main_arg6)
/-- Argument 7: the first spherical weight (42 × 8). -/
abbrev a7 : FVec Ideal (Sh2 42 8) .f32 := V0 (Proc.devRef .tc main_arg7)
/-- Argument 8: the second spherical weight (8 × 64). -/
abbrev a8 : FVec Ideal (Sh2 8 64) .f32 := V0 (Proc.devRef .tc main_arg8)
/-- Argument 9: the weight W_kj. -/
abbrev a9 : FVec Ideal (Sh2 128 128) .f32 := V0 (Proc.devRef .tc main_arg9)
/-- Argument 10: the bias b_kj. -/
abbrev a10 : FVec Ideal (Sh1 128) .f32 := V0 (Proc.devRef .tc main_arg10)
/-- Argument 11: the weight W_ji. -/
abbrev a11 : FVec Ideal (Sh2 128 128) .f32 := V0 (Proc.devRef .tc main_arg11)
/-- Argument 12: the bias b_ji. -/
abbrev a12 : FVec Ideal (Sh1 128) .f32 := V0 (Proc.devRef .tc main_arg12)
/-- Argument 13: the down projection (128 × 64). -/
abbrev a13 : FVec Ideal (Sh2 128 64) .f32 := V0 (Proc.devRef .tc main_arg13)
/-- Argument 14: the up projection (64 × 128). -/
abbrev a14 : FVec Ideal (Sh2 64 128) .f32 := V0 (Proc.devRef .tc main_arg14)
/-- Argument 15: the residual layer before the skip: first weight. -/
abbrev a15 : FVec Ideal (Sh2 128 128) .f32 := V0 (Proc.devRef .tc main_arg15)
/-- Argument 16: … its first bias. -/
abbrev a16 : FVec Ideal (Sh1 128) .f32 := V0 (Proc.devRef .tc main_arg16)
/-- Argument 17: … its second weight. -/
abbrev a17 : FVec Ideal (Sh2 128 128) .f32 := V0 (Proc.devRef .tc main_arg17)
/-- Argument 18: … its second bias. -/
abbrev a18 : FVec Ideal (Sh1 128) .f32 := V0 (Proc.devRef .tc main_arg18)
/-- Argument 19: the weight W_lin. -/
abbrev a19 : FVec Ideal (Sh2 128 128) .f32 := V0 (Proc.devRef .tc main_arg19)
/-- Argument 20: the bias b_lin. -/
abbrev a20 : FVec Ideal (Sh1 128) .f32 := V0 (Proc.devRef .tc main_arg20)
/-- Argument 21: the first residual layer after the skip: first weight. -/
abbrev a21 : FVec Ideal (Sh2 128 128) .f32 := V0 (Proc.devRef .tc main_arg21)
/-- Argument 22: … its first bias. -/
abbrev a22 : FVec Ideal (Sh1 128) .f32 := V0 (Proc.devRef .tc main_arg22)
/-- Argument 23: … its second weight. -/
abbrev a23 : FVec Ideal (Sh2 128 128) .f32 := V0 (Proc.devRef .tc main_arg23)
/-- Argument 24: … its second bias. -/
abbrev a24 : FVec Ideal (Sh1 128) .f32 := V0 (Proc.devRef .tc main_arg24)
/-- Argument 25: the second residual layer after the skip: first weight. -/
abbrev a25 : FVec Ideal (Sh2 128 128) .f32 := V0 (Proc.devRef .tc main_arg25)
/-- Argument 26: … its first bias. -/
abbrev a26 : FVec Ideal (Sh1 128) .f32 := V0 (Proc.devRef .tc main_arg26)
/-- Argument 27: … its second weight. -/
abbrev a27 : FVec Ideal (Sh2 128 128) .f32 := V0 (Proc.devRef .tc main_arg27)
/-- Argument 28: … its second bias. -/
abbrev a28 : FVec Ideal (Sh1 128) .f32 := V0 (Proc.devRef .tc main_arg28)

/-! ## The message passing -/

/-- The aggregated messages as the reference computes them: row e is the sum, over the triplets t that point at edge e,
    of (edge stage's row of the edge t reads from) ⊙ (t's embedding). -/
def refAgg : FVec Ideal (Sh2 200000 64) .f32 :=
  Host.scatterAdd scatter_S200000x64_S2000000x1_S2000000x64_1_0_0_1
    (broadcastInDim S200000x64 ![] bcast_S_S200000x64 (constant S_ .f32 0x00000000#32))
    (broadcastInDim S2000000x1 ![0] bcast_S2000000_S2000000x1_0 (a4 V0))
    (mulf (Host.gather gather_S200000x64_S2000000x1_S2000000x64_1_0_n_n_0_1_164
            (edgeStage (a0 V0) (a1 V0) (a9 V0) (vecFn (a10 V0)) (a5 V0) (a6 V0) (a13 V0))
            (broadcastInDim S2000000x1 ![0] bcast_S2000000_S2000000x1_0 (select (cmpi .slt (a3 V0) (broadcastInDim S2000000 ![] bcast_S_S2000000 (constantI S_ 32 0#32))) (addi (a3 V0) (broadcastInDim S2000000 ![] bcast_S_S2000000 (constantI S_ 32 200000#32))) (a3 V0))))
          (tripEmb (a2 V0) (a7 V0) (a8 V0)))

/-- h0 = swish(x · W_ji + b_ji) + swish(agg · W_up). -/
def refH0 : FVec Ideal (Sh2 200000 128) .f32 :=
  addf (swishV (addCols (mm (a0 V0) (a11 V0)) (vecFn (a12 V0)))) (swishV (mm (refAgg V0) (a14 V0)))

/-- h1: the residual layer before the skip, on h0. -/
def refH1 : FVec Ideal (Sh2 200000 128) .f32 := resBlock (refH0 V0) (a15 V0) (vecFn (a16 V0)) (a17 V0) (vecFn (a18 V0))

/-- h2 = swish(h1 · W_lin + b_lin) + x. -/
def refH2 : FVec Ideal (Sh2 200000 128) .f32 := addf (swishV (addCols (mm (refH1 V0) (a19 V0)) (vecFn (a20 V0)))) (a0 V0)

/-- h3: the first residual layer after the skip, on h2. -/
def refH3 : FVec Ideal (Sh2 200000 128) .f32 := resBlock (refH2 V0) (a21 V0) (vecFn (a22 V0)) (a23 V0) (vecFn (a24 V0))

/-! ## The named intermediates, in order -/

/-- x · W_ji + b_ji. -/
theorem v3_eq : res_main_v3 V0 = addCols (mm (a0 V0) (a11 V0)) (vecFn (a12 V0)) := by
  unfold res_main_v3
  rw [dE_128_128, dotGeneral_plain, bias_host]

/-- x · W_kj + b_kj. -/
theorem v14_eq : res_main_v14 V0 = addCols (mm (a0 V0) (a9 V0)) (vecFn (a10 V0)) := by
  unfold res_main_v14
  rw [dE_128_128, dotGeneral_plain, bias_host]

/-- The edge stage before its last swish. -/
theorem v25_eq : res_main_v25 V0
    = mm (mulf (swishV (addCols (mm (a0 V0) (a9 V0)) (vecFn (a10 V0)))) (mm (mm (a1 V0) (a5 V0)) (a6 V0))) (a13 V0) := by
  unfold res_main_v25
  rw [dE_128_64, dE_8_128, dE_6_8, dotGeneral_plain, dotGeneral_plain, dotGeneral_plain, swish_host, v14_eq]

/-- agg · W_up. -/
theorem v46_eq : res_main_v46 V0 = mm (refAgg V0) (a14 V0) := by
  unfold res_main_v46
  rw [dE_64_128, dT_8_64, dT_42_8, dotGeneral_plain, dotGeneral_plain, dotGeneral_plain, swish_host, v25_eq]
  unfold refAgg tripEmb edgeStage
  rfl

theorem v54_eq : res_main_v54 V0 = refH0 V0 := by
  unfold res_main_v54
  refine (congrArg₂ addf (swish_host bcast_S_S200000x128 (res_main_v3 V0))
    (swish_host bcast_S_S200000x128 (res_main_v46 V0))).trans ?_
  rw [v3_eq, v46_eq]
  unfold refH0
  rfl

theorem v58_eq : res_main_v58 V0 = addCols (mm (refH0 V0) (a15 V0)) (vecFn (a16 V0)) := by
  unfold res_main_v58
  rw [dE_128_128, dotGeneral_plain, bias_host, v54_eq]

theorem v69_eq : res_main_v69 V0
    = addCols (mm (swishV (addCols (mm (refH0 V0) (a15 V0)) (vecFn (a16 V0)))) (a17 V0)) (vecFn (a18 V0)) := by
  unfold res_main_v69
  rw [dE_128_128, dotGeneral_plain, bias_host, swish_host, v58_eq]

theorem v81_eq : res_main_v81 V0 = addCols (mm (refH1 V0) (a19 V0)) (vecFn (a20 V0)) := by
  unfold res_main_v81
  rw [dE_128_128, dotGeneral_plain, bias_host, swish_host, v54_eq, v69_eq]
  unfold refH1 resBlock
  rfl

theorem v89_eq : res_main_v89 V0 = refH2 V0 := by
  unfold res_main_v89
  refine (congrArg (fun z => addf z (a0 V0)) (swish_host bcast_S_S200000x128 (res_main_v81 V0))).trans ?_
  rw [v81_eq]
  unfold refH2
  rfl

theorem v93_eq : res_main_v93 V0 = addCols (mm (refH2 V0) (a21 V0)) (vecFn (a22 V0)) := by
  unfold res_main_v93
  rw [dE_128_128, dotGeneral_plain, bias_host, v89_eq]

theorem v104_eq : res_main_v104 V0
    = addCols (mm (swishV (addCols (mm (refH2 V0) (a21 V0)) (vecFn (a22 V0)))) (a23 V0)) (vecFn (a24 V0)) := by
  unfold res_main_v104
  rw [dE_128_128, dotGeneral_plain, bias_host, swish_host, v93_eq]

theorem v112_eq : res_main_v112 V0 = refH3 V0 := by
  unfold res_main_v112
  refine (congrArg (addf (res_main_v89 V0)) (swish_host bcast_S_S200000x128 (res_main_v104 V0))).trans ?_
  rw [v89_eq, v104_eq]
  unfold refH3 resBlock
  rfl

theorem v116_eq : res_main_v116 V0 = addCols (mm (refH3 V0) (a25 V0)) (vecFn (a26 V0)) := by
  unfold res_main_v116
  rw [dE_128_128, dotGeneral_plain, bias_host, v112_eq]

theorem v127_eq : res_main_v127 V0
    = addCols (mm (swishV (addCols (mm (refH3 V0) (a25 V0)) (vecFn (a26 V0)))) (a27 V0)) (vecFn (a28 V0)) := by
  unfold res_main_v127
  rw [dE_128_128, dotGeneral_plain, bias_host, swish_host, v116_eq]

/-! ## The result -/

/-- The last residual layer on h3 is the node stage on the aggregated messages. -/
theorem refH3_res : resBlock (refH3 V0) (a25 V0) (vecFn (a26 V0)) (a27 V0) (vecFn (a28 V0))
    = nodeStage (refAgg V0) (a0 V0) (a11 V0) (vecFn (a12 V0)) (a14 V0) (a15 V0) (vecFn (a16 V0)) (a17 V0) (vecFn (a18 V0)) (a19 V0) (vecFn (a20 V0))
        (a21 V0) (vecFn (a22 V0)) (a23 V0) (vecFn (a24 V0)) (a25 V0) (vecFn (a26 V0)) (a27 V0) (vecFn (a28 V0)) := by
  unfold nodeStage refH3 refH2 refH1 refH0
  rfl

/-- The reference's result is the node stage on the aggregated messages. -/
theorem ref_result :
    addf (res_main_v112 V0) (mulf (res_main_v127 V0) (Host.divf (broadcastInDim S200000x128 ![] bcast_S_S200000x128 (constant S_ .f32 0x3F800000#32)) (addf (broadcastInDim S200000x128 ![] bcast_S_S200000x128 (constant S_ .f32 0x3F800000#32)) (Host.exp (Host.negf (res_main_v127 V0))))))
      = nodeStage (refAgg V0) (a0 V0) (a11 V0) (vecFn (a12 V0)) (a14 V0) (a15 V0) (vecFn (a16 V0)) (a17 V0) (vecFn (a18 V0)) (a19 V0) (vecFn (a20 V0))
          (a21 V0) (vecFn (a22 V0)) (a23 V0) (vecFn (a24 V0)) (a25 V0) (vecFn (a26 V0)) (a27 V0) (vecFn (a28 V0)) := by
  refine (congrArg (addf (res_main_v112 V0)) (swish_host bcast_S_S200000x128 (res_main_v127 V0))).trans ?_
  rw [v112_eq, v127_eq, ← refH3_res]
  unfold resBlock
  rfl

end Cert.ReferenceIdeal.RefSide

end
-- ==== Proof.IndexRange.lean ====
/-
  What the precondition says of the triplet-to-edge index idx_kj (the fourth argument): every entry is a nonnegative
  32-bit signed number.  The precondition is one conjunction of "all" tests; the two outermost conjuncts are
  all(idx_kj ≥ 0) and all(idx_kj < 200000), so the first of them is reached by peeling two conjunctions, and an "all"
  that holds, holds at every index.  For a nonnegative index the reference's wrap of negative indices
  (idx < 0 ? idx + 200000 : idx) is the identity.
-/
import proofs.«405097_j85779086836105_3_alg».proof.Pre_finite_inputs
import Idealize.ShloMosaic.Lib.ReduceAll
import Idealize.ShloMosaic.Lib.ValueIdx

noncomputable section

open Idealize.ShloMosaic Idealize.ShloMosaic.ValueIdx

namespace Cert.IndexRange

open Cert.Pre_finite_inputs

variable [Cert.Pre_finite_inputs.Facts]

instance : Subsingleton S_.Idx := ⟨fun a b => funext fun d => d.elim0⟩

set_option maxRecDepth 8192 in
/-- Under the precondition every entry of idx_kj is nonnegative as a signed number. -/
theorem idx_nonneg {F : FTy → Type} [FloatOps F] {main_arg0 : FVec F S200000x128 .f32} {main_arg1 : FVec F S200000x6 .f32} {main_arg2 : FVec F S2000000x42 .f32} {main_arg3 : IVec S2000000 32} {main_arg4 : IVec S2000000 32} {main_arg5 : FVec F S6x8 .f32} {main_arg6 : FVec F S8x128 .f32} {main_arg7 : FVec F S42x8 .f32} {main_arg8 : FVec F S8x64 .f32} {main_arg9 : FVec F S128x128 .f32} {main_arg10 : FVec F S128 .f32} {main_arg11 : FVec F S128x128 .f32} {main_arg12 : FVec F S128 .f32} {main_arg13 : FVec F S128x64 .f32} {main_arg14 : FVec F S64x128 .f32} {main_arg15 : FVec F S128x128 .f32} {main_arg16 : FVec F S128 .f32} {main_arg17 : FVec F S128x128 .f32} {main_arg18 : FVec F S128 .f32} {main_arg19 : FVec F S128x128 .f32} {main_arg20 : FVec F S128 .f32} {main_arg21 : FVec F S128x128 .f32} {main_arg22 : FVec F S128 .f32} {main_arg23 : FVec F S128x128 .f32} {main_arg24 : FVec F S128 .f32} {main_arg25 : FVec F S128x128 .f32} {main_arg26 : FVec F S128 .f32} {main_arg27 : FVec F S128x128 .f32} {main_arg28 : FVec F S128 .f32}
    (h : fn (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 = fun _ => 1#1) (t : S2000000.Idx) :
    (0 : Int) ≤ (main_arg3 t).toInt := by
  have h0 := congrFun h ix0
  dsimp only [fn, fn_part1, fn_part2, fn_part3, fn_part4, fn_part5, fn_part6, fn_part7, fn_part8] at h0
  have h1 := (IntOp.andi_eq_one.1 h0).1
  have h2 := (IntOp.andi_eq_one.1 h1).2
  have h3 := Host.reduce_andi_all _ _ _ _ ix0 h2 t
  exact IntOp.cmpi_sge.1 h3

/-- On nonnegative indices the wrap "idx < 0 ? idx + n : idx" is the identity. -/
theorem wrap_eq_self {s : Shape} (bc : S_.BroadcastsInDim s ![]) (idx : IVec s 32) (n : BitVec 32)
    (h : ∀ t, (0 : Int) ≤ (idx t).toInt) :
    select (cmpi .slt idx (broadcastInDim s ![] bc (constantI S_ 32 0#32)))
      (addi idx (broadcastInDim s ![] bc (constantI S_ 32 n))) idx = idx := by
  funext t
  show Scalar.select (IntOp.cmpi .slt (idx t) 0#32) _ (idx t) = idx t
  have hc : IntOp.cmpi .slt (idx t) 0#32 = 0#1 := by
    refine eq_zero_of_ne_one fun hlt => ?_
    have := IntOp.cmpi_slt.1 hlt
    have h0 : (0#32 : BitVec 32).toInt = 0 := by decide
    have := h t
    omega
  rw [hc, select_zero]

end Cert.IndexRange

end
-- ==== Proof.Bridge.lean ====
/-
  The two programs compute the same function.  Run from memories that agree on the arguments, the kernel's program ends
  with the node stage of its summed messages (the run of the three calls, read end to end) and the reference with the
  node stage of its own (its run, read stage by stage); the stages and their other arguments are the same, so it is
  enough that the summed messages agree.  They differ in two places only.  The reference wraps a negative index before
  gathering (idx < 0 ? idx + 200000 : idx) where the kernel's gather takes idx_kj as it is: under the precondition
  every idx_kj is nonnegative and the wrap is the identity.  And the reference multiplies gathered · embedding where the
  kernel multiplies embedding · gathered: multiplication of extended reals is commutative.
-/
import proofs.«405097_j85779086836105_3_alg».proof.Defs
import proofs.«405097_j85779086836105_3_alg».proof.Proof.KernelValue
import proofs.«405097_j85779086836105_3_alg».proof.Proof.RefSide
import proofs.«405097_j85779086836105_3_alg».proof.Proof.IndexRange
import proofs.«405097_j85779086836105_3_alg».proof.Proof.Gen.Pre_finite_inputs

set_option maxRecDepth 16384

noncomputable section

namespace Cert.Bridge

open Idealize.ShloMosaic Idealize.ShloMosaic.TcCoe Idealize.SL.Sem Idealize.ShloMosaic.StableHlo Cert.RowMath Cert.Stages
open Cert.KernelIdeal.KernelValue

/-- Entrywise multiplication of matrices of extended reals is commutative. -/
theorem mulf_swap {s : Shape} (a b : FVec Ideal s .f32) : mulf a b = mulf b a :=
  funext fun i => by
    show (a i : EReal) * (b i : EReal) = (b i : EReal) * (a i : EReal)
    exact mul_comm _ _

theorem algebraic : Cert.algebraic_KernelIdeal_ReferenceIdeal := by
  intro m ρ m' ρ' hpre hagree
  refine ⟨fun c => kOut m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11, g12, g13, g14, g15, g16, g17, g18, g19, g20, g21, g22, g23, g24, g25, g26, g27, g28⟩ := hagree c
  have hidx : ∀ t, (0 : Int) ≤ ((m ((c.tc : Thread Cert.KernelIdeal.nD Cert.KernelIdeal.τ).loc Cert.KernelIdeal.main_arg3) : IVec Cert.Pre_finite_inputs.S2000000 32) t).toInt :=
    fun t => Cert.IndexRange.idx_nonneg (hpre c) t
  have hagg : Cert.ReferenceIdeal.RefSide.refAgg (launchContents m' c) = kAgg m c := by
    unfold Cert.ReferenceIdeal.RefSide.refAgg kAgg kMsg kEdge
    rw [show Cert.ReferenceIdeal.RefSide.a0 (launchContents m' c) = _ from g0,
      show Cert.ReferenceIdeal.RefSide.a1 (launchContents m' c) = _ from g1,
      show Cert.ReferenceIdeal.RefSide.a9 (launchContents m' c) = _ from g9,
      show Cert.ReferenceIdeal.RefSide.a10 (launchContents m' c) = _ from g10,
      show Cert.ReferenceIdeal.RefSide.a5 (launchContents m' c) = _ from g5,
      show Cert.ReferenceIdeal.RefSide.a6 (launchContents m' c) = _ from g6,
      show Cert.ReferenceIdeal.RefSide.a13 (launchContents m' c) = _ from g13,
      show Cert.ReferenceIdeal.RefSide.a2 (launchContents m' c) = _ from g2,
      show Cert.ReferenceIdeal.RefSide.a7 (launchContents m' c) = _ from g7,
      show Cert.ReferenceIdeal.RefSide.a8 (launchContents m' c) = _ from g8,
      show Cert.ReferenceIdeal.RefSide.a4 (launchContents m' c) = _ from g4]
    rw [show Cert.ReferenceIdeal.RefSide.a3 (launchContents m' c) = _ from g3]
    have hw := Cert.IndexRange.wrap_eq_self (s := Cert.ReferenceIdeal.S2000000) Cert.ReferenceIdeal.Gen.bcast_S_S2000000
      (m ((c.tc : Thread Cert.KernelIdeal.nD Cert.KernelIdeal.τ).loc Cert.KernelIdeal.main_arg3) : IVec Cert.ReferenceIdeal.S2000000 32) 200000#32 hidx
    rw [hw, mulf_swap]
    rfl
  refine (Cert.ReferenceIdeal.RefSide.ref_result (launchContents m' c)).trans ?_
  rw [hagg]
  unfold kOut
  rw [show Cert.ReferenceIdeal.RefSide.a0 (launchContents m' c) = _ from g0,
    show Cert.ReferenceIdeal.RefSide.a11 (launchContents m' c) = _ from g11,
    show Cert.ReferenceIdeal.RefSide.a12 (launchContents m' c) = _ from g12,
    show Cert.ReferenceIdeal.RefSide.a14 (launchContents m' c) = _ from g14,
    show Cert.ReferenceIdeal.RefSide.a15 (launchContents m' c) = _ from g15,
    show Cert.ReferenceIdeal.RefSide.a16 (launchContents m' c) = _ from g16,
    show Cert.ReferenceIdeal.RefSide.a17 (launchContents m' c) = _ from g17,
    show Cert.ReferenceIdeal.RefSide.a18 (launchContents m' c) = _ from g18,
    show Cert.ReferenceIdeal.RefSide.a19 (launchContents m' c) = _ from g19,
    show Cert.ReferenceIdeal.RefSide.a20 (launchContents m' c) = _ from g20,
    show Cert.ReferenceIdeal.RefSide.a21 (launchContents m' c) = _ from g21,
    show Cert.ReferenceIdeal.RefSide.a22 (launchContents m' c) = _ from g22,
    show Cert.ReferenceIdeal.RefSide.a23 (launchContents m' c) = _ from g23,
    show Cert.ReferenceIdeal.RefSide.a24 (launchContents m' c) = _ from g24,
    show Cert.ReferenceIdeal.RefSide.a25 (launchContents m' c) = _ from g25,
    show Cert.ReferenceIdeal.RefSide.a26 (launchContents m' c) = _ from g26,
    show Cert.ReferenceIdeal.RefSide.a27 (launchContents m' c) = _ from g27,
    show Cert.ReferenceIdeal.RefSide.a28 (launchContents m' c) = _ from g28]

end Cert.Bridge

end
-- ==== Proof.lean ====
/-
  The certificate for one interaction block of a directional message-passing network: a Pallas kernel in three
  pallas_calls (the per-edge stage, the per-triplet stage fused with the product by the gathered edge rows, and the
  residual stack per edge), with a host gather by idx_kj and a host scatter-add by idx_ji between them, against its
  plain jnp reference.  Precondition: every float input finite, and every idx_kj in [0, 200000).

  The three frames: the kernel's programs by their generated frame proofs; the reference's by its generated run with the
  result dropped.  The ideal pass changed nothing in the kernel (no ledger entry), so the sanctioned-idealization
  conjunct is trivial.  The equivalence over the extended reals is Cert.Bridge.algebraic: both programs are the same
  three row-wise stages around the same gather and scatter-add, once the index wrap is seen to be the identity on
  nonnegative indices and one product is commuted.
-/
import proofs.«405097_j85779086836105_3_alg».proof.Defs
import proofs.«405097_j85779086836105_3_alg».proof.Proof.Gen.Kernel
import proofs.«405097_j85779086836105_3_alg».proof.Proof.Gen.Kernel.Skeleton
import proofs.«405097_j85779086836105_3_alg».proof.Proof.Gen.Kernel.Launch
import proofs.«405097_j85779086836105_3_alg».proof.Proof.Gen.Kernel.Points
import proofs.«405097_j85779086836105_3_alg».proof.Proof.Gen.Kernel.Frame
import proofs.«405097_j85779086836105_3_alg».proof.Proof.Gen.KernelIdeal
import proofs.«405097_j85779086836105_3_alg».proof.Proof.Gen.KernelIdeal.Skeleton
import proofs.«405097_j85779086836105_3_alg».proof.Proof.Gen.KernelIdeal.Launch
import proofs.«405097_j85779086836105_3_alg».proof.Proof.Gen.KernelIdeal.Points
import proofs.«405097_j85779086836105_3_alg».proof.Proof.Gen.KernelIdeal.Frame
import proofs.«405097_j85779086836105_3_alg».proof.Proof.Gen.ReferenceIdeal
import proofs.«405097_j85779086836105_3_alg».proof.Proof.Gen.ReferenceIdeal.Run
import proofs.«405097_j85779086836105_3_alg».proof.Proof.Gen.Pre_finite_inputs
import proofs.«405097_j85779086836105_3_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Bridge.algebraic⟩

end Cert.Proof

end
